-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x2 : Shape := ⟨2, ![2000000, 2]⟩
abbrev S2000000x4 : Shape := ⟨2, ![2000000, 4]⟩
abbrev S2000000 : Shape := ⟨1, ![2000000]⟩
abbrev S_ : Shape := ⟨0, ![]⟩

class Facts : Prop where
  bcast_S_S2000000x2 : S_.BroadcastsInDim S2000000x2 (![] : Fin 0 → Fin S2000000x2.rank)
  reducesTo_S2000000x2_S_d0_1 : S2000000x2.ReducesTo [0, 1] S_
  h_S_ : 0 < S_.numel
  bcast_S_S2000000x4 : S_.BroadcastsInDim S2000000x4 (![] : Fin 0 → Fin S2000000x4.rank)
  reducesTo_S2000000x4_S_d0_1 : S2000000x4.ReducesTo [0, 1] S_

variable [Facts]

def fn {F : FTy → Type} [FloatOps F] (main_arg0 : FVec F S2000000x2 .f32) (main_arg1 : FVec F S2000000x4 .f32) (main_arg2 : IVec S2000000 32) (main_arg3 : FVec F S2000000x4 .f32) : IVec S_ 1 :=
  let main_v0 : FVec F S2000000x2 .f32 := Host.absf main_arg0
  let main_cst : FVec F S_ .f32 := constant S_ .f32 0x7F800000#32
  let main_v1 : FVec F S2000000x2 .f32 := broadcastInDim S2000000x2 ![] bcast_S_S2000000x2 main_cst
  let main_v2 : IVec S2000000x2 1 := cmpf .olt main_v0 main_v1
  let main_c : IVec S_ 1 := constantI S_ 1 1#1
  let main_v3 : IVec S_ 1 := (fun x v => Host.reduce IntOp.andi x v reducesTo_S2000000x2_S_d0_1 h_S_) main_v2 main_c
  let main_v4 : FVec F S2000000x4 .f32 := Host.absf main_arg1
  let main_cst_0 : FVec F S_ .f32 := constant S_ .f32 0x7F800000#32
  let main_v5 : FVec F S2000000x4 .f32 := broadcastInDim S2000000x4 ![] bcast_S_S2000000x4 main_cst_0
  let main_v6 : IVec S2000000x4 1 := cmpf .olt main_v4 main_v5
  let main_c_1 : IVec S_ 1 := constantI S_ 1 1#1
  let main_v7 : IVec S_ 1 := (fun x v => Host.reduce IntOp.andi x v reducesTo_S2000000x4_S_d0_1 h_S_) main_v6 main_c_1
  let main_v8 : IVec S_ 1 := andi main_v3 main_v7
  let main_v9 : FVec F S2000000x4 .f32 := Host.absf main_arg3
  let main_cst_2 : FVec F S_ .f32 := constant S_ .f32 0x7F800000#32
  let main_v10 : FVec F S2000000x4 .f32 := broadcastInDim S2000000x4 ![] bcast_S_S2000000x4 main_cst_2
  let main_v11 : IVec S2000000x4 1 := cmpf .olt main_v9 main_v10
  let main_c_3 : IVec S_ 1 := constantI S_ 1 1#1
  let main_v12 : IVec S_ 1 := (fun x v => Host.reduce IntOp.andi x v reducesTo_S2000000x4_S_d0_1 h_S_) main_v11 main_c_3
  let main_v13 : IVec S_ 1 := andi main_v8 main_v12
  main_v13
-- ==== Kernel.lean ====
abbrev S2000000x2 : Shape := ⟨2, ![2000000, 2]⟩
abbrev S2000000x4 : Shape := ⟨2, ![2000000, 4]⟩
abbrev S2000000 : Shape := ⟨1, ![2000000]⟩
abbrev S_ : Shape := ⟨0, ![]⟩
abbrev S2000896x2 : Shape := ⟨2, ![2000896, 2]⟩
abbrev S2000896x4 : Shape := ⟨2, ![2000896, 4]⟩
abbrev S2000896 : Shape := ⟨1, ![2000896]⟩
abbrev S1x1 : Shape := ⟨2, ![1, 1]⟩
abbrev S2048x2 : Shape := ⟨2, ![2048, 2]⟩
abbrev S2048x4 : Shape := ⟨2, ![2048, 4]⟩
abbrev S2048 : Shape := ⟨1, ![2048]⟩
abbrev S2048x1 : Shape := ⟨2, ![2048, 1]⟩
abbrev S1x2048 : Shape := ⟨2, ![1, 2048]⟩
abbrev S1 : Shape := ⟨1, ![1]⟩

abbrev nBuf : Space → Nat
  | .hbm => 27
  | .vmem => 10
  | .smem => 0
  | _ => 0

abbrev bufTy : (tb : Table) → Fin (tcTables nBuf tb) → BufTy
  | .hbm, ⟨0, _⟩ => ⟨S2000000x2, .f32⟩
  | .hbm, ⟨1, _⟩ => ⟨S2000000x4, .f32⟩
  | .hbm, ⟨2, _⟩ => ⟨S2000000, .i32⟩
  | .hbm, ⟨3, _⟩ => ⟨S2000000x4, .f32⟩
  | .hbm, ⟨4, _⟩ => ⟨S_, .i32⟩
  | .hbm, ⟨5, _⟩ => ⟨S_, .f32⟩
  | .hbm, ⟨6, _⟩ => ⟨S2000896x2, .f32⟩
  | .hbm, ⟨7, _⟩ => ⟨S_, .i32⟩
  | .hbm, ⟨8, _⟩ => ⟨S_, .f32⟩
  | .hbm, ⟨9, _⟩ => ⟨S2000896x4, .f32⟩
  | .hbm, ⟨10, _⟩ => ⟨S_, .i32⟩
  | .hbm, ⟨11, _⟩ => ⟨S_, .f32⟩
  | .hbm, ⟨12, _⟩ => ⟨S2000896x4, .f32⟩
  | .hbm, ⟨13, _⟩ => ⟨S_, .i32⟩
  | .hbm, ⟨14, _⟩ => ⟨S_, .i32⟩
  | .hbm, ⟨15, _⟩ => ⟨S2000896, .i32⟩
  | .hbm, ⟨16, _⟩ => ⟨S1x1, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S2048x2, .f32⟩
  | .local _ .vmem, ⟨1, _⟩ => ⟨S2048x2, .f32⟩
  | .local _ .vmem, ⟨2, _⟩ => ⟨S2048x4, .f32⟩
  | .local _ .vmem, ⟨3, _⟩ => ⟨S2048x4, .f32⟩
  | .local _ .vmem, ⟨4, _⟩ => ⟨S2048, .i32⟩
  | .local _ .vmem, ⟨5, _⟩ => ⟨S2048, .i32⟩
  | .local _ .vmem, ⟨6, _⟩ => ⟨S2048x4, .f32⟩
  | .local _ .vmem, ⟨7, _⟩ => ⟨S2048x4, .f32⟩
  | .local _ .vmem, ⟨8, _⟩ => ⟨S1x1, .f32⟩
  | .local _ .vmem, ⟨9, _⟩ => ⟨S1x1, .f32⟩
  | _, _ => ⟨S2000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  pads_S2000000x2_S2000896x2_08960_000 : S2000000x2.Pads (![0, 0] : Fin 2 → Nat) ![896, 0] ![0, 0] S2000896x2
  h_S_ : 0 < S_.numel
  pads_S2000000x4_S2000896x4_08960_000 : S2000000x4.Pads (![0, 0] : Fin 2 → Nat) ![896, 0] ![0, 0] S2000896x4
  pads_S2000000_S2000896_08960 : S2000000.Pads (![0] : Fin 1 → Nat) ![896] ![0] S2000896
  inb_S1x1_S1x1_0_0 : ∀ a, (![0, 0] : Fin 2 → Nat) a + S1x1.size a ≤ S1x1.size a
  h_S1x1 : 0 < S1x1.numel
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S2048_S2048_0 : ∀ a, (![0] : Fin 1 → Nat) a + S2048.size a ≤ S2048.size a
  h_S2048 : 0 < S2048.numel
  shapeCasts_S2048_S2048 : S2048.ShapeCasts S2048
  reduces_S2048x2_S2048 : S2048x2.Reduces [1] S2048
  shapeCasts_S2048_S2048x1 : S2048.ShapeCasts S2048x1
  broadcasts_S2048x1_S2048x2 : S2048x1.Broadcasts S2048x2
  slices_S2048x2_o0_0_S2048x1 : S2048x2.Slices ![0, 0] S2048x1
  shapeCasts_S2048x1_S2048 : S2048x1.ShapeCasts S2048
  slices_S2048x2_o0_1_S2048x1 : S2048x2.Slices ![0, 1] S2048x1
  shapeCasts_S1x1_S1x1 : S1x1.ShapeCasts S1x1
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  reduces_S2048x4_S2048 : S2048x4.Reduces [1] S2048
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S2000896x2.size a
  hwx0_0 : ∀ i : grid0.Coords, EltTy.bits .f32 = 32 ∨ (Rect.block (s := S2000896x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S2000896x4.size a
  hwx0_1 : ∀ i : grid0.Coords, EltTy.bits .f32 = 32 ∨ (Rect.block (s := S2000896x4) S2048x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2000896.size a
  hwx0_2 : ∀ i : grid0.Coords, EltTy.bits .i32 = 32 ∨ (Rect.block (s := S2000896) S2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4.size a ≤ S2000896x4.size a
  hwx0_3 : ∀ i : grid0.Coords, EltTy.bits .f32 = 32 ∨ (Rect.block (s := S2000896x4) S2048x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x2 : Shape := ⟨2, ![2000000, 2]⟩
abbrev S2000000x4 : Shape := ⟨2, ![2000000, 4]⟩
abbrev S2000000 : Shape := ⟨1, ![2000000]⟩
abbrev S_ : Shape := ⟨0, ![]⟩
abbrev S2000000x1 : Shape := ⟨2, ![2000000, 1]⟩
abbrev S2000000x1x1 : Shape := ⟨3, ![2000000, 1, 1]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S2000000x2, .f32⟩
  | .hbm, ⟨1, _⟩ => ⟨S2000000x4, .f32⟩
  | .hbm, ⟨2, _⟩ => ⟨S2000000, .i32⟩
  | .hbm, ⟨3, _⟩ => ⟨S2000000x4, .f32⟩
  | .hbm, ⟨4, _⟩ => ⟨S_, .i32⟩
  | .hbm, ⟨5, _⟩ => ⟨S2000000, .i32⟩
  | .hbm, ⟨6, _⟩ => ⟨S2000000, .i1⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S2000000, .i1⟩
  | .hbm, ⟨11, _⟩ => ⟨S_, .f32⟩
  | .hbm, ⟨12, _⟩ => ⟨S2000000, .f32⟩
  | .hbm, ⟨13, _⟩ => ⟨S_, .f32⟩
  | .hbm, ⟨14, _⟩ => ⟨S2000000, .f32⟩
  | .hbm, ⟨15, _⟩ => ⟨S2000000, .f32⟩
  | .hbm, ⟨16, _⟩ => ⟨S2000000x1, .f32⟩
  | .hbm, ⟨17, _⟩ => ⟨S2000000x2, .f32⟩
  | .hbm, ⟨18, _⟩ => ⟨S2000000x2, .f32⟩
  | .hbm, ⟨19, _⟩ => ⟨S2000000x2, .f32⟩
  | .hbm, ⟨20, _⟩ => ⟨S_, .f32⟩
  | .hbm, ⟨21, _⟩ => ⟨S2000000, .f32⟩
  | .hbm, ⟨22, _⟩ => ⟨S2000000x1, .f32⟩
  | .hbm, ⟨23, _⟩ => ⟨S2000000x1, .f32⟩
  | .hbm, ⟨24, _⟩ => ⟨S2000000x2, .f32⟩
  | .hbm, ⟨25, _⟩ => ⟨S2000000x2, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2000000, .i32⟩
  | .hbm, ⟨30, _⟩ => ⟨S2000000, .i32⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S_, .i32⟩
  | .hbm, ⟨36, _⟩ => ⟨S2000000x1, .i32⟩
  | .hbm, ⟨37, _⟩ => ⟨S2000000x1, .i1⟩
  | .hbm, ⟨38, _⟩ => ⟨S_, .i32⟩
  | .hbm, ⟨39, _⟩ => ⟨S2000000x1, .i32⟩
  | .hbm, ⟨40, _⟩ => ⟨S2000000x1, .i32⟩
  | .hbm, ⟨41, _⟩ => ⟨S2000000x1, .i32⟩
  | .hbm, ⟨42, _⟩ => ⟨S2000000x1x1, .i32⟩
  | .hbm, ⟨43, _⟩ => ⟨S1, .i32⟩
  | .hbm, ⟨44, _⟩ => ⟨S_, .i32⟩
  | .hbm, ⟨45, _⟩ => ⟨S2000000x1x1, .i32⟩
  | .hbm, ⟨46, _⟩ => ⟨S2000000x1x1, .i1⟩
  | .hbm, ⟨47, _⟩ => ⟨S1x1x1, .i32⟩
  | .hbm, ⟨48, _⟩ => ⟨S2000000x1x1, .i32⟩
  | .hbm, ⟨49, _⟩ => ⟨S2000000x1x1, .i1⟩
  | .hbm, ⟨50, _⟩ => ⟨S2000000x1x1, .i1⟩
  | .hbm, ⟨51, _⟩ => ⟨S_, .i1⟩
  | .hbm, ⟨52, _⟩ => ⟨S2000000x1, .i1⟩
  | .hbm, ⟨53, _⟩ => ⟨S2000000x1, .f32⟩
  | .hbm, ⟨54, _⟩ => ⟨S_, .f32⟩
  | .hbm, ⟨55, _⟩ => ⟨S2000000x1, .f32⟩
  | .hbm, ⟨56, _⟩ => ⟨S2000000x1, .f32⟩
  | .hbm, ⟨57, _⟩ => ⟨S2000000, .f32⟩
  | .hbm, ⟨58, _⟩ => ⟨S2000000, .f32⟩
  | .hbm, ⟨59, _⟩ => ⟨S_, .f32⟩
  | .hbm, ⟨60, _⟩ => ⟨S_, .f32⟩
  | .hbm, ⟨61, _⟩ => ⟨S2000000, .f32⟩
  | .hbm, ⟨62, _⟩ => ⟨S2000000, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S2000000x4, .f32⟩
  | .hbm, ⟨68, _⟩ => ⟨S2000000x4, .f32⟩
  | .hbm, ⟨69, _⟩ => ⟨S_, .f32⟩
  | .hbm, ⟨70, _⟩ => ⟨S2000000x4, .f32⟩
  | .hbm, ⟨71, _⟩ => ⟨S2000000x4, .i1⟩
  | .hbm, ⟨72, _⟩ => ⟨S_, .f32⟩
  | .hbm, ⟨73, _⟩ => ⟨S2000000x4, .f32⟩
  | .hbm, ⟨74, _⟩ => ⟨S2000000x4, .f32⟩
  | .hbm, ⟨75, _⟩ => ⟨S2000000x4, .f32⟩
  | .hbm, ⟨76, _⟩ => ⟨S_, .f32⟩
  | .hbm, ⟨77, _⟩ => ⟨S2000000x4, .f32⟩
  | .hbm, ⟨78, _⟩ => ⟨S2000000x4, .f32⟩
  | .hbm, ⟨79, _⟩ => ⟨S2000000x4, .f32⟩
  | .hbm, ⟨80, _⟩ => ⟨S_, .f32⟩
  | .hbm, ⟨81, _⟩ => ⟨S2000000, .f32⟩
  | .hbm, ⟨82, _⟩ => ⟨S_, .f32⟩
  | .hbm, ⟨83, _⟩ => ⟨S2000000, .f32⟩
  | .hbm, ⟨84, _⟩ => ⟨S2000000, .f32⟩
  | .hbm, ⟨85, _⟩ => ⟨S_, .f32⟩
  | .hbm, ⟨86, _⟩ => ⟨S_, .f32⟩
  | .hbm, ⟨87, _⟩ => ⟨S2000000, .f32⟩
  | .hbm, ⟨88, _⟩ => ⟨S2000000, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S2000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v5 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v6 : Ref sig .tc := ⟨.hbm, 33, rfl⟩
abbrev main_v7 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst : Ref sig .tc := ⟨.hbm, 59, rfl⟩
abbrev main_call3_v0 : Ref sig .tc := ⟨.hbm, 60, rfl⟩
abbrev main_call3_v1 : Ref sig .tc := ⟨.hbm, 61, rfl⟩
abbrev main_v11 : Ref sig .tc := ⟨.hbm, 62, rfl⟩
abbrev main_cst_3 : Ref sig .tc := ⟨.hbm, 63, rfl⟩
abbrev main_v12 : Ref sig .tc := ⟨.hbm, 64, rfl⟩
abbrev main_cst_4 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_cst_5 : Ref sig .tc := ⟨.hbm, 69, rfl⟩
abbrev main_v16 : Ref sig .tc := ⟨.hbm, 70, rfl⟩
abbrev main_v17 : Ref sig .tc := ⟨.hbm, 71, rfl⟩
abbrev main_cst_6 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst_7 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_8 : Ref sig .tc := ⟨.hbm, 80, rfl⟩
abbrev main_v24 : Ref sig .tc := ⟨.hbm, 81, rfl⟩
abbrev main_cst_9 : Ref sig .tc := ⟨.hbm, 82, rfl⟩
abbrev main_v25 : Ref sig .tc := ⟨.hbm, 83, rfl⟩
abbrev main_v26 : Ref sig .tc := ⟨.hbm, 84, rfl⟩
abbrev main_cst_10 : Ref sig .tc := ⟨.hbm, 85, rfl⟩
abbrev main_call5_v0 : Ref sig .tc := ⟨.hbm, 86, rfl⟩
abbrev main_call5_v1 : Ref sig .tc := ⟨.hbm, 87, rfl⟩
abbrev main_v27 : Ref sig .tc := ⟨.hbm, 88, rfl⟩
abbrev main_cst_11 : Ref sig .tc := ⟨.hbm, 89, rfl⟩
abbrev main_v28 : Ref sig .tc := ⟨.hbm, 90, rfl⟩
abbrev main_cst_12 : Ref sig .tc := ⟨.hbm, 91, rfl⟩
abbrev main_v29 : Ref sig .tc := ⟨.hbm, 92, rfl⟩
abbrev main_cst_13 : Ref sig .tc := ⟨.hbm, 93, rfl⟩
abbrev main_v30 : Ref sig .tc := ⟨.hbm, 94, rfl⟩
abbrev main_v31 : Ref sig .tc := ⟨.hbm, 95, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  reducesTo_S2000000x2_S2000000_d1 : S2000000x2.ReducesTo [1] S2000000
  h_S_ : 0 < S_.numel
  bcast_S2000000_S2000000x1_0 : S2000000.BroadcastsInDim S2000000x1 (![0] : Fin 1 → Fin S2000000x1.rank)
  bcast_S2000000x1_S2000000x2_0_1 : S2000000x1.BroadcastsInDim S2000000x2 (![0, 1] : Fin 2 → Fin S2000000x2.rank)
  bcast_S_S2000000x1 : S_.BroadcastsInDim S2000000x1 (![] : Fin 0 → Fin S2000000x1.rank)
  shapeCasts_S2000000x1_S2000000x1x1 : S2000000x1.ShapeCasts S2000000x1x1
  bcast_S_S2000000x1x1 : S_.BroadcastsInDim S2000000x1x1 (![] : Fin 0 → Fin S2000000x1x1.rank)
  bcast_S1_S1x1x1_2 : S1.BroadcastsInDim S1x1x1 (![2] : Fin 1 → Fin S1x1x1.rank)
  bcast_S1x1x1_S2000000x1x1_0_1_2 : S1x1x1.BroadcastsInDim S2000000x1x1 (![0, 1, 2] : Fin 3 → Fin S2000000x1x1.rank)
  reducesTo_S2000000x1x1_S2000000x1_d2 : S2000000x1x1.ReducesTo [2] S2000000x1
  shapeCasts_S2000000x1_S2000000 : S2000000x1.ShapeCasts S2000000
  reducesTo_S2000000_S_d0 : S2000000.ReducesTo [0] S_
  bcast_S_S2000000x4 : S_.BroadcastsInDim S2000000x4 (![] : Fin 0 → Fin S2000000x4.rank)
  reducesTo_S2000000x4_S2000000_d1 : S2000000x4.ReducesTo [1] S2000000
  gather_S2000000x2_S2000000x1x1_S2000000x1_n_1_0_0_1_2_11_wf : GatherDims.WF S2000000x2 S2000000x1x1 S2000000x1 [] [1] [0] [1] [0] 2 ![1, 1]

variable [Facts₀]

def gather_S2000000x2_S2000000x1x1_S2000000x1_n_1_0_0_1_2_11 : GatherDims S2000000x2 S2000000x1x1 S2000000x1 where
  offsetDims := []
  collapsedSliceDims := [1]
  operandBatchingDims := [0]
  startIndicesBatchingDims := [0]
  startIndexMap := [1]
  indexVectorDim := 2
  sliceSizes := ![1, 1]
  wf := gather_S2000000x2_S2000000x1x1_S2000000x1_n_1_0_0_1_2_11_wf

class Facts : Prop extends Facts₀ where

variable [Facts]
-- ==== Proof.PointTotals.lean ====
/-
  What one grid point leaves in the two running totals, as values. At the first point the kernel zeroes a total, reads the
  zero back and adds the point's block total to it; at every later point it adds the block total to what the point before
  left. Each of the four found store lists (two totals, two cases) is read back here as the store's payload: the block
  total added to the zero splat (first point) or to the carried value (later points).
-/
import proofs.«424538_j10943576670681_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Totals

open Cert.KernelIdeal Cert.KernelIdeal.Gen

variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a; rfl

/-- First point, classification total: the block's masked cross-entropy sum added to the zero just stored. -/
theorem first_ce (c : Dev nD) (i : grid0.Coords) (arg1 : Memref sig .tc .vmem S2048x2 .f32) (harg1 : arg1.IsWhole) (arg2 : Memref sig .tc .vmem S2048x4 .f32) (harg2 : arg2.IsWhole) (arg3 : Memref sig .tc .vmem S2048 .i32) (harg3 : arg3.IsWhole) (arg4 : Memref sig .tc .vmem S2048x4 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S2048x2 .f32) (x1 : Vec F S2048x4 .f32) (x2 : Vec F S2048 .i32) (x3 : Vec F S2048x4 .f32) :
    out0_A_4 c i arg1 harg1 arg2 harg2 arg3 harg3 arg4 harg4 arg5 harg5 arg6 harg6 hc0 x0 x1 x2 x3 = k0_pay1 (k0_pay9 x0 x2) (k0_pay3 (F := F)) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_cons_unit_zero (S := S1x1) zeros2, View.readCov_unit_zero (S := S1x1) _ zeros2]
  simp only [View.readAt_eq_ld, harg1.read_unread, harg3.read_unread, View.ld_unit_zero (S := S2048x2) zeros2,
    View.ld_unit_zero (S := S2048) zeros1]

/-- First point, regression total: the block's masked smooth-L1 sum added to the zero just stored. -/
theorem first_rl (c : Dev nD) (i : grid0.Coords) (arg1 : Memref sig .tc .vmem S2048x2 .f32) (harg1 : arg1.IsWhole) (arg2 : Memref sig .tc .vmem S2048x4 .f32) (harg2 : arg2.IsWhole) (arg3 : Memref sig .tc .vmem S2048 .i32) (harg3 : arg3.IsWhole) (arg4 : Memref sig .tc .vmem S2048x4 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S2048x2 .f32) (x1 : Vec F S2048x4 .f32) (x2 : Vec F S2048 .i32) (x3 : Vec F S2048x4 .f32) :
    out0_A_5 c i arg1 harg1 arg2 harg2 arg3 harg3 arg4 harg4 arg5 harg5 arg6 harg6 hc0 x0 x1 x2 x3 = k0_pay2 (k0_pay5 x1) (k0_pay6 x3) (k0_pay8 x2) (k0_pay4 (F := F)) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S1x1) zeros2, View.readCov_unit_zero (S := S1x1) _ zeros2]
  simp only [View.readAt_eq_ld, harg2.read_unread, harg3.read_unread, harg4.read_unread, View.ld_unit_zero (S := S2048x4) zeros2,
    View.ld_unit_zero (S := S2048) zeros1]

/-- Later points, classification total: the block's sum added to the carried total. -/
theorem next_ce (c : Dev nD) (i : grid0.Coords) (arg1 : Memref sig .tc .vmem S2048x2 .f32) (harg1 : arg1.IsWhole) (arg2 : Memref sig .tc .vmem S2048x4 .f32) (harg2 : arg2.IsWhole) (arg3 : Memref sig .tc .vmem S2048 .i32) (harg3 : arg3.IsWhole) (arg4 : Memref sig .tc .vmem S2048x4 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S2048x2 .f32) (x1 : Vec F S2048x4 .f32) (x2 : Vec F S2048 .i32) (x3 : Vec F S2048x4 .f32) (xo4 xo5 : Vec F S1x1 .f32) :
    out0_B_4 c i arg1 harg1 arg2 harg2 arg3 harg3 arg4 harg4 arg5 harg5 arg6 harg6 hc0 x0 x1 x2 x3 xo4 xo5 = k0_pay1 (k0_pay9 x0 x2) xo4 := by
  unfold out0_B_4
  rw [View.read_writes_eq_canon _ _ _ (cover0_B_4 c i arg1 harg1 arg2 harg2 arg3 harg3 arg4 harg4 arg5 harg5 arg6 harg6 hc0 x0 x1 x2 x3 xo4 xo5)]
  unfold kernelRun0_B
  dsimp only
  sl_unfold_words
  rw [View.canon_unit_zero (S := S1x1) zeros2]
  simp only [View.readAt_eq_ld, harg1.read_unread, harg3.read_unread, harg5.read_unread, View.ld_unit_zero (S := S2048x2) zeros2,
    View.ld_unit_zero (S := S2048) zeros1, View.ld_unit_zero (S := S1x1) zeros2]

/-- Later points, regression total: the block's sum added to the carried total. -/
theorem next_rl (c : Dev nD) (i : grid0.Coords) (arg1 : Memref sig .tc .vmem S2048x2 .f32) (harg1 : arg1.IsWhole) (arg2 : Memref sig .tc .vmem S2048x4 .f32) (harg2 : arg2.IsWhole) (arg3 : Memref sig .tc .vmem S2048 .i32) (harg3 : arg3.IsWhole) (arg4 : Memref sig .tc .vmem S2048x4 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S2048x2 .f32) (x1 : Vec F S2048x4 .f32) (x2 : Vec F S2048 .i32) (x3 : Vec F S2048x4 .f32) (xo4 xo5 : Vec F S1x1 .f32) :
    out0_B_5 c i arg1 harg1 arg2 harg2 arg3 harg3 arg4 harg4 arg5 harg5 arg6 harg6 hc0 x0 x1 x2 x3 xo4 xo5 = k0_pay2 (k0_pay5 x1) (k0_pay6 x3) (k0_pay8 x2) xo5 := by
  unfold out0_B_5
  rw [View.read_writes_eq_canon _ _ _ (cover0_B_5 c i arg1 harg1 arg2 harg2 arg3 harg3 arg4 harg4 arg5 harg5 arg6 harg6 hc0 x0 x1 x2 x3 xo4 xo5)]
  unfold kernelRun0_B
  dsimp only
  sl_unfold_words
  rw [View.canon_unit_zero (S := S1x1) zeros2]
  simp only [View.readAt_eq_ld, harg2.read_unread, harg3.read_unread, harg4.read_unread, harg6.read_unread,
    View.ld_unit_zero (S := S2048x4) zeros2, View.ld_unit_zero (S := S2048) zeros1, View.ld_unit_zero (S := S1x1) zeros2]

end Cert.KernelIdeal.Totals

end
-- ==== Proof.LossTerms.lean ====
/-
  The two per-anchor terms of the detection loss, and their totals over all anchors, on the extended reals.

  For one anchor with class logits f = (f 0, f 1) and label c the classification term is the negated log-softmax of f at
  the anchor's class, kept only where the label is 0 or 1:
      lse f   = log (exp (f 0 - s) + exp (f 1 - s)),   s the row's maximum (taken from -inf),
      logp f k = (f k - s) - lse f,
      ceTerm f c = -(logp f 0 if c = 0 else logp f 1) if c is 0 or 1, else 0.
  For box coordinates a, b (four each) the regression term is the mean over the four coordinates of the smooth L1
  distance, kept only where the label is 1:
      smoothL1 d = d * d / 2 if |d| < 1 else |d| - 1/2,
      rlTerm a b c = (sum of smoothL1 (a k - b k) over k) / 4 if c = 1, else 0.
  An anchor whose label is neither 0 nor 1 contributes zero to both, whatever its other data: that is what makes
  padding rows labelled 2 harmless (ceTerm_two, rlTerm_two).
-/
import Idealize.ShloMosaic.PureOps.Ideal
import Idealize.ShloMosaic.PureOps.Ideal.Laws
import Idealize.ShloMosaic.Lib.ValueIdx

noncomputable section

namespace Cert.AnchorLoss

open Idealize.ShloMosaic Idealize.ShloMosaic.ValueIdx

/-- The float patterns the two programs share, read as extended reals (never evaluated: the same word on both sides). -/
abbrev negInf : EReal := Ideal.ofBits .f32 0xFF800000#32
abbrev one : EReal := Ideal.ofBits .f32 0x3F800000#32
abbrev half : EReal := Ideal.ofBits .f32 0x3F000000#32
abbrev four : EReal := Ideal.ofBits .f32 0x40800000#32

/-- The shift of a row of two logits: its maximum, folded from -inf and joined with -inf once more. -/
def rowShift (f : Fin 2 → EReal) : EReal := max negInf ((Finset.univ : Finset (Fin 2)).fold max negInf f)

/-- The log-softmax of a row of two logits at class k. -/
def logp (f : Fin 2 → EReal) (k : Fin 2) : EReal :=
  (f k - rowShift f) - Ideal.log (∑ k' : Fin 2, Ideal.exp (f k' - rowShift f))

/-- Is the label one of the two classes (1 or 0)? -/
abbrev selected (c : BitVec 32) : BitVec 1 := IntOp.ori (IntOp.cmpi .eq c 1#32) (IntOp.cmpi .eq c 0#32)

/-- The classification term of one anchor. -/
def ceTerm (f : Fin 2 → EReal) (c : BitVec 32) : EReal :=
  Scalar.select (selected c) (-(Scalar.select (IntOp.cmpi .eq c 0#32) (logp f 0) (logp f 1))) 0

/-- The smooth L1 distance of one coordinate difference. -/
def smoothL1 (d : EReal) : EReal :=
  Scalar.select (Ideal.cmp .olt (max d (-d)) one) (half * d * d) (max d (-d) - half)

/-- The regression term of one anchor. -/
def rlTerm (a b : Fin 4 → EReal) (c : BitVec 32) : EReal :=
  Scalar.select (IntOp.cmpi .eq c 1#32) (Ideal.div (∑ k : Fin 4, smoothL1 (a k - b k)) four) 0

/-- A label that is neither class contributes nothing to the classification sum, -/
theorem ceTerm_two (f : Fin 2 → EReal) : ceTerm f 2#32 = 0 := by
  unfold ceTerm
  rw [show selected 2#32 = 0#1 from by decide]
  exact select_zero _ _

/-- nor to the regression sum. -/
theorem rlTerm_two (a b : Fin 4 → EReal) : rlTerm a b 2#32 = 0 := by
  unfold rlTerm
  rw [show IntOp.cmpi .eq (2#32 : BitVec 32) 1#32 = 0#1 from by decide]
  exact select_zero _ _

/-- The classification total over N anchors. -/
def ceTotal {N : Nat} (x : (⟨2, ![N, 2]⟩ : Shape).Idx → EReal) (cls : (⟨1, ![N]⟩ : Shape).Idx → BitVec 32) : EReal :=
  ∑ n : Fin N, ceTerm (fun k => x (ix2 n k)) (cls (ix1 n))

/-- The regression total over N anchors. -/
def rlTotal {N : Nat} (a b : (⟨2, ![N, 4]⟩ : Shape).Idx → EReal) (cls : (⟨1, ![N]⟩ : Shape).Idx → BitVec 32) : EReal :=
  ∑ n : Fin N, rlTerm (fun k => a (ix2 n k)) (fun k => b (ix2 n k)) (cls (ix1 n))

end Cert.AnchorLoss

end
-- ==== Proof.BlockValue.lean ====
/-
  What one block of 2048 anchors contributes, at the ideal instance: the kernel's masked cross-entropy vector is the
  classification term anchor by anchor, its masked smooth-L1 vector the regression term, and each of the two stores adds
  the sum of its vector over the block's 2048 anchors to the value it read.
-/
import proofs.«424538_j10943576670681_2_alg».proof.Proof.Gen.KernelIdeal.Skeleton
import proofs.«424538_j10943576670681_2_alg».proof.Proof.LossTerms
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Cert.AnchorLoss Idealize.ShloMosaic Idealize.ShloMosaic.ValueIdx

/-! ## Re-laid vectors read at an index -/

section Layout
variable {α : Type}

/-- A vector of 2048 entries viewed as a column: entry r. -/
theorem col_apply (v : S2048.Idx → α) (h : S2048.ShapeCasts S2048x1) (r : Fin 2048) (z : Fin 1) :
    shapeCast S2048x1 v h (ix2 r z) = v (ix1 r) :=
  shapeCast_apply v h (ix2 r z) (ix1 r) (by
    rw [Shape.rowMajor_val_one, Shape.rowMajor_val_two]
    have := z.isLt
    show r.val = r.val * 1 + z.val
    omega)

/-- A column viewed as a vector: entry r. -/
theorem uncol_apply (v : S2048x1.Idx → α) (h : S2048x1.ShapeCasts S2048) (r : Fin 2048) :
    shapeCast S2048 v h (ix1 r) = v (ix2 r (0 : Fin 1)) :=
  shapeCast_apply v h (ix1 r) (ix2 r (0 : Fin 1)) (by
    rw [Shape.rowMajor_val_one, Shape.rowMajor_val_two]
    show r.val * 1 + 0 = r.val
    omega)

/-- A column repeated along two lanes: row r's entry in both. -/
theorem col_bcast2_apply (v : S2048x1.Idx → α) (h : S2048x1.Broadcasts S2048x2) (r : Fin 2048) (k : Fin 2) :
    broadcastTo S2048x2 v h (ix2 r k) = v (ix2 r (0 : Fin 1)) :=
  broadcastTo_apply v h (ix2 r k) (ix2 r (0 : Fin 1)) (fun a => by
    match a with
    | ⟨0, _⟩ => show r.val = if (2048 : Nat) = 1 then 0 else r.val; rw [if_neg (by decide)]
    | ⟨1, _⟩ => show (0 : Nat) = if (1 : Nat) = 1 then 0 else k.val; rw [if_pos rfl])

/-- Lane c of a two-lane array as a column. -/
theorem lane_apply (v : S2048x2.Idx → α) (c : Fin 2) (off : Fin 2 → Nat) (hoff : off = ![0, c.val])
    (h : S2048x2.Slices off S2048x1) (r : Fin 2048) (z : Fin 1) :
    extractStridedSlice S2048x1 off v h (ix2 r z) = v (ix2 r c) := by
  subst hoff
  refine extractStridedSlice_apply _ v h (ix2 r z) (ix2 r c) (fun a => ?_)
  have := z.isLt
  match a with
  | ⟨0, _⟩ => show r.val = 0 + r.val; omega
  | ⟨1, _⟩ => show c.val = c.val + z.val; omega

/-- A vector of 2048 entries viewed as one row: entry k. -/
theorem row_apply (v : S2048.Idx → α) (h : S2048.ShapeCasts S1x2048) (z : Fin 1) (k : Fin 2048) :
    shapeCast S1x2048 v h (ix2 z k) = v (ix1 k) :=
  shapeCast_apply v h (ix2 z k) (ix1 k) (by
    rw [Shape.rowMajor_val_one, Shape.rowMajor_val_two]
    have := z.isLt
    show k.val = z.val * 2048 + k.val
    omega)

/-- A one-entry vector viewed as a one-by-one array. -/
theorem unit_apply (v : S1.Idx → α) (h : S1.ShapeCasts S1x1) (i : S1x1.Idx) :
    shapeCast S1x1 v h i = v (ix1 (0 : Fin 1)) :=
  shapeCast_apply v h i (ix1 (0 : Fin 1)) (by
    rw [Shape.rowMajor_val_one, Shape.rowMajor_val_two]
    have h0 : (i 0).val < 1 := (i 0).isLt
    have h1 : (i 1).val < 1 := (i 1).isLt
    show (0 : Nat) = (i 0).val * 1 + (i 1).val
    omega)

/-- Inserting lane k into row r of the two-lane array. -/
theorem lift2 (h : S2048x2.Reduces [1] S2048) (r : Fin 2048) (k : Fin 2) : h.lift (ix1 r) k = ix2 r k :=
  funext fun a => Fin.ext (by match a with | ⟨0, _⟩ => rfl | ⟨1, _⟩ => rfl)

/-- Inserting coordinate k into row r of the four-coordinate array. -/
theorem lift4 (h : S2048x4.Reduces [1] S2048) (r : Fin 2048) (k : Fin 4) : h.lift (ix1 r) k = ix2 r k :=
  funext fun a => Fin.ext (by match a with | ⟨0, _⟩ => rfl | ⟨1, _⟩ => rfl)

/-- Inserting anchor k into the one row. -/
theorem liftRow (h : S1x2048.Reduces [1] S1) (z : Fin 1) (k : Fin 2048) : h.lift (ix1 z) k = ix2 z k :=
  funext fun a => Fin.ext (by match a with | ⟨0, _⟩ => rfl | ⟨1, _⟩ => rfl)

end Layout

/-! ## The block's sum added to what was read -/

/-- The classification store: the value read plus the sum of the block's 2048 masked cross-entropy entries. -/
theorem ce_store (v38 : FVec Ideal S2048 .f32) (v39 : Vec Ideal S1x1 .f32) :
    k0_pay1 (F := Ideal) v38 v39 = fun i => v39 i + ∑ k : Fin 2048, v38 (ix1 k) := by
  funext i
  unfold k0_pay1
  simp only [shapeCast_self]
  show v39 i + extractAt ![0, 0] (shapeCast S1x1 (multiReduction .add [1] S1 (shapeCast S1x2048 v38 shapeCasts_S2048_S1x2048) 0x00000000#32 reduces_S1x2048_S1 (.inl rfl) rfl) shapeCasts_S1_S1x1) inpos_S1x1_p0_0 = _
  unfold extractAt
  rw [unit_apply]
  refine congrArg (v39 i + ·) ?_
  refine (Ideal.multiReduction_add_single _ _ reduces_S1x2048_S1 _ _ (ix1 (0 : Fin 1))).trans ?_
  exact Finset.sum_congr rfl fun k _ =>
    (congrArg (shapeCast S1x2048 v38 shapeCasts_S2048_S1x2048) (liftRow reduces_S1x2048_S1 (0 : Fin 1) k)).trans
      (row_apply v38 shapeCasts_S2048_S1x2048 (0 : Fin 1) k)

/-! ## The masked cross-entropy vector, anchor by anchor -/

/-- The block's logits shifted by each row's maximum. -/
def shifted (v4 : FVec Ideal S2048x2 .f32) : FVec Ideal S2048x2 .f32 :=
  subf v4 (broadcastTo S2048x2 (shapeCast S2048x1 (maximumf (broadcast S2048 (Scalar.ofBits (F := Ideal) .f32 0xFF800000#32))
    (multiReduction .maximumf [1] S2048 v4 0xFF800000#32 reduces_S2048x2_S2048 (.inl rfl) rfl)) shapeCasts_S2048_S2048x1) broadcasts_S2048x1_S2048x2)

theorem shifted_apply (v4 : FVec Ideal S2048x2 .f32) (r : Fin 2048) (k : Fin 2) :
    shifted v4 (ix2 r k) = v4 (ix2 r k) - rowShift (fun k' => v4 (ix2 r k')) := by
  unfold shifted
  show v4 (ix2 r k) - broadcastTo S2048x2 _ broadcasts_S2048x1_S2048x2 (ix2 r k) = _
  rw [col_bcast2_apply, col_apply]
  refine congrArg (v4 (ix2 r k) - ·) ?_
  show max (Ideal.ofBits .f32 0xFF800000#32) (multiReduction .maximumf [1] S2048 v4 0xFF800000#32 reduces_S2048x2_S2048 (.inl rfl) rfl (ix1 r)) = _
  unfold rowShift
  refine congrArg (max _) ?_
  refine (Ideal.multiReduction_maximumf_single v4 _ reduces_S2048x2_S2048 _ _ (ix1 r)).trans ?_
  exact congrArg (fun f => Finset.fold max negInf f (Finset.univ : Finset (Fin 2)))
    (funext fun k' => congrArg v4 (lift2 reduces_S2048x2_S2048 r k'))

/-- The block's log-softmax. -/
def logpVec (v4 : FVec Ideal S2048x2 .f32) : FVec Ideal S2048x2 .f32 :=
  subf (shifted v4) (broadcastTo S2048x2 (log (shapeCast S2048x1
    (multiReduction .add [1] S2048 (exp (shifted v4)) 0x00000000#32 reduces_S2048x2_S2048 (.inl rfl) rfl) shapeCasts_S2048_S2048x1))
    broadcasts_S2048x1_S2048x2)

theorem logpVec_apply (v4 : FVec Ideal S2048x2 .f32) (r : Fin 2048) (k : Fin 2) :
    logpVec v4 (ix2 r k) = logp (fun k' => v4 (ix2 r k')) k := by
  unfold logpVec logp
  show shifted v4 (ix2 r k) - broadcastTo S2048x2 _ broadcasts_S2048x1_S2048x2 (ix2 r k) = _
  rw [col_bcast2_apply, shifted_apply]
  refine congrArg (fun z : EReal => (v4 (ix2 r k) - rowShift (fun k' => v4 (ix2 r k'))) - z) ?_
  show Ideal.log (shapeCast S2048x1 _ shapeCasts_S2048_S2048x1 (ix2 r (0 : Fin 1))) = _
  rw [col_apply]
  refine congrArg Ideal.log ?_
  refine (Ideal.multiReduction_add_single (exp (shifted v4)) _ reduces_S2048x2_S2048 _ _ (ix1 r)).trans ?_
  exact Finset.sum_congr rfl fun k' _ =>
    (congrArg (exp (shifted v4)) (lift2 reduces_S2048x2_S2048 r k')).trans
      (congrArg Ideal.exp (shifted_apply v4 r k'))

/-- The kernel's masked cross-entropy vector over the block's log-softmax. -/
theorem ce_vec_eq (x0 : Vec Ideal S2048x2 .f32) (x2 : Vec Ideal S2048 .i32) :
    k0_pay9 (F := Ideal) x0 x2
      = select (ori (cmpi .eq (x2 : IVec S2048 32) (broadcast S2048 1#32)) (cmpi .eq (x2 : IVec S2048 32) (broadcast S2048 0#32)))
          (subf (broadcast S2048 (Scalar.ofBits (F := Ideal) .f32 0x00000000#32))
            (select (cmpi .eq (x2 : IVec S2048 32) (broadcast S2048 0#32))
              (shapeCast S2048 (extractStridedSlice S2048x1 ![0, 0] (logpVec x0) slices_S2048x2_o0_0_S2048x1) shapeCasts_S2048x1_S2048)
              (shapeCast S2048 (extractStridedSlice S2048x1 ![0, 1] (logpVec x0) slices_S2048x2_o0_1_S2048x1) shapeCasts_S2048x1_S2048)))
          (broadcast S2048 (Scalar.ofBits (F := Ideal) .f32 0x00000000#32)) := by
  unfold k0_pay9 k0_pay8 k0_pay7 logpVec shifted
  simp only [shapeCast_self]

/-- Entry r of the masked cross-entropy vector is anchor r's classification term. -/
theorem ce_vec_apply (x0 : Vec Ideal S2048x2 .f32) (x2 : Vec Ideal S2048 .i32) (r : Fin 2048) :
    k0_pay9 (F := Ideal) x0 x2 (ix1 r) = ceTerm (fun k => x0 (ix2 r k)) (x2 (ix1 r)) := by
  rw [ce_vec_eq]
  unfold ceTerm
  show Scalar.select (selected (x2 (ix1 r)))
      (Ideal.ofBits .f32 0x00000000#32 - Scalar.select (IntOp.cmpi .eq (x2 (ix1 r)) 0#32)
        (shapeCast S2048 (extractStridedSlice S2048x1 ![0, 0] (logpVec x0) slices_S2048x2_o0_0_S2048x1) shapeCasts_S2048x1_S2048 (ix1 r))
        (shapeCast S2048 (extractStridedSlice S2048x1 ![0, 1] (logpVec x0) slices_S2048x2_o0_1_S2048x1) shapeCasts_S2048x1_S2048 (ix1 r)))
      (Ideal.ofBits .f32 0x00000000#32) = _
  rw [uncol_apply, uncol_apply, lane_apply (logpVec x0) (0 : Fin 2) ![0, 0] rfl slices_S2048x2_o0_0_S2048x1 r (0 : Fin 1),
    lane_apply (logpVec x0) (1 : Fin 2) ![0, 1] rfl slices_S2048x2_o0_1_S2048x1 r (0 : Fin 1),
    logpVec_apply, logpVec_apply, Ideal.ofBits_zero_f32, zero_sub]

/-! ## The masked smooth-L1 vector, anchor by anchor -/

/-- The block's smooth-L1 distances, coordinate by coordinate. -/
def sl1Vec (v6 v8 : FVec Ideal S2048x4 .f32) : FVec Ideal S2048x4 .f32 :=
  select (cmpf .olt (absf (subf v6 v8)) (broadcast S2048x4 (Scalar.ofBits (F := Ideal) .f32 0x3F800000#32)))
    (mulf (mulf (broadcast S2048x4 (Scalar.ofBits (F := Ideal) .f32 0x3F000000#32)) (subf v6 v8)) (subf v6 v8))
    (subf (absf (subf v6 v8)) (broadcast S2048x4 (Scalar.ofBits (F := Ideal) .f32 0x3F000000#32)))

theorem sl1Vec_apply (v6 v8 : FVec Ideal S2048x4 .f32) (i : S2048x4.Idx) : sl1Vec v6 v8 i = smoothL1 (v6 i - v8 i) := rfl

/-- The regression store: the value read plus the sum of the block's 2048 masked smooth-L1 means. -/
theorem rl_store (x1 x3 : Vec Ideal S2048x4 .f32) (x2 : Vec Ideal S2048 .i32) (v63 : Vec Ideal S1x1 .f32) :
    k0_pay2 (F := Ideal) (k0_pay5 x1) (k0_pay6 x3) (k0_pay8 x2) v63
      = fun i => v63 i + ∑ r : Fin 2048, rlTerm (fun k => x1 (ix2 r k)) (fun k => x3 (ix2 r k)) (x2 (ix1 r)) := by
  funext i
  unfold k0_pay2 k0_pay5 k0_pay6 k0_pay8 k0_pay7
  simp only [shapeCast_self]
  show v63 i + extractAt ![0, 0] (shapeCast S1x1 (multiReduction .add [1] S1 (shapeCast S1x2048
      (select (cmpi .eq (x2 : IVec S2048 32) (broadcast S2048 1#32))
        (divf (multiReduction .add [1] S2048 (sl1Vec x1 x3) 0x00000000#32 reduces_S2048x4_S2048 (.inl rfl) rfl)
          (broadcast S2048 (Scalar.ofBits (F := Ideal) .f32 0x40800000#32)))
        (broadcast S2048 (Scalar.ofBits (F := Ideal) .f32 0x00000000#32))) shapeCasts_S2048_S1x2048)
      0x00000000#32 reduces_S1x2048_S1 (.inl rfl) rfl) shapeCasts_S1_S1x1) inpos_S1x1_p0_0 = _
  unfold extractAt
  rw [unit_apply]
  refine congrArg (v63 i + ·) ?_
  refine (Ideal.multiReduction_add_single _ _ reduces_S1x2048_S1 _ _ (ix1 (0 : Fin 1))).trans ?_
  refine Finset.sum_congr rfl fun r _ => ?_
  refine (congrArg (shapeCast S1x2048 _ shapeCasts_S2048_S1x2048) (liftRow reduces_S1x2048_S1 (0 : Fin 1) r)).trans ?_
  refine (row_apply _ shapeCasts_S2048_S1x2048 (0 : Fin 1) r).trans ?_
  unfold rlTerm
  show Scalar.select (IntOp.cmpi .eq (x2 (ix1 r)) 1#32)
      (Ideal.div (multiReduction .add [1] S2048 (sl1Vec x1 x3) 0x00000000#32 reduces_S2048x4_S2048 (.inl rfl) rfl (ix1 r)) (Ideal.ofBits .f32 0x40800000#32))
      (Ideal.ofBits .f32 0x00000000#32) = _
  rw [Ideal.ofBits_zero_f32]
  refine congrArg (fun z => Scalar.select (IntOp.cmpi .eq (x2 (ix1 r)) 1#32) (Ideal.div z four) 0) ?_
  refine (Ideal.multiReduction_add_single (sl1Vec x1 x3) _ reduces_S2048x4_S2048 _ _ (ix1 r)).trans ?_
  exact Finset.sum_congr rfl fun k _ =>
    (congrArg (sl1Vec x1 x3) (lift4 reduces_S2048x4_S2048 r k)).trans (sl1Vec_apply x1 x3 (ix2 r k))

end Cert.KernelIdeal.BlockValue

end
-- ==== Proof.PaddedInputs.lean ====
/-
  The arrays the kernel's region reads are the four inputs padded by 896 rows (to 977 blocks of 2048): the float inputs
  with the converted integer zero, the labels with the constant 2. Block t of a padded array, read at row r of the
  block, is the padded array at row 2048 t + r; a padded array at a row below 2,000,000 is the input there, and the
  padded labels from row 2,000,000 on are 2.
-/
import proofs.«424538_j10943576670681_2_alg».proof.Proof.Gen.KernelIdeal.Frame
import Idealize.ShloMosaic.Lib.Pipeline.Value
import Idealize.ShloMosaic.Lib.KernelVsHost
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Padded

open Cert.KernelIdeal Cert.KernelIdeal.Gen

variable {F : FTy → Type} [FloatOps F]
variable (m : (ℓ : Loc nD τ sig) → Buf (Elt F) ℓ)

/-- The four arrays as the region finds them, at their literal types. -/
abbrev coutP (c : Dev nD) : Vec F S2000896x2 .f32 := V m c main_v0
abbrev routP (c : Dev nD) : Vec F S2000896x4 .f32 := V m c main_v1
abbrev regP (c : Dev nD) : Vec F S2000896x4 .f32 := V m c main_v2
abbrev clsP (c : Dev nD) : Vec F S2000896 .i32 := V m c main_v3

/-- The four inputs at their literal types. -/
abbrev coutA (c : Dev nD) : Vec F S2000000x2 .f32 := m ((c : Thread nD τ).loc main_arg0)
abbrev routA (c : Dev nD) : Vec F S2000000x4 .f32 := m ((c : Thread nD τ).loc main_arg1)
abbrev clsA (c : Dev nD) : Vec F S2000000 .i32 := m ((c : Thread nD τ).loc main_arg2)
abbrev regA (c : Dev nD) : Vec F S2000000x4 .f32 := m ((c : Thread nD τ).loc main_arg3)

/-- The padded logits are the host's pad of the logits. -/
theorem coutP_eq (c : Dev nD) : coutP m c
    = pad S2000896x2 ![0, 0] ![896, 0] ![0, 0] (coutA m c) (sitofp (F := F) .f32 (constantI S_ 32 0#32)) pads_S2000000x2_S2000896x2_08960_000 h_S_ := by
  show V m c main_v0 = _
  dsimp only [V, V0]
  simp only [hostOps0, hostOps0_1, hostOps0_2, hostOps0_3, hostOps0_4, hostOps0_5, hostOps0_6, hostOps0_7, List.flatten_cons, List.flatten_nil,
    List.append_nil, List.cons_append, List.nil_append]
  after_results
  rfl

/-- The padded predictions are the host's pad of the predictions. -/
theorem routP_eq (c : Dev nD) : routP m c
    = pad S2000896x4 ![0, 0] ![896, 0] ![0, 0] (routA m c) (sitofp (F := F) .f32 (constantI S_ 32 0#32)) pads_S2000000x4_S2000896x4_08960_000 h_S_ := by
  show V m c main_v1 = _
  dsimp only [V, V0]
  simp only [hostOps0, hostOps0_1, hostOps0_2, hostOps0_3, hostOps0_4, hostOps0_5, hostOps0_6, hostOps0_7, List.flatten_cons, List.flatten_nil,
    List.append_nil, List.cons_append, List.nil_append]
  after_results
  rfl

/-- The padded targets are the host's pad of the targets. -/
theorem regP_eq (c : Dev nD) : regP m c
    = pad S2000896x4 ![0, 0] ![896, 0] ![0, 0] (regA m c) (sitofp (F := F) .f32 (constantI S_ 32 0#32)) pads_S2000000x4_S2000896x4_08960_000 h_S_ := by
  show V m c main_v2 = _
  dsimp only [V, V0]
  simp only [hostOps0, hostOps0_1, hostOps0_2, hostOps0_3, hostOps0_4, hostOps0_5, hostOps0_6, hostOps0_7, List.flatten_cons, List.flatten_nil,
    List.append_nil, List.cons_append, List.nil_append]
  after_results
  rfl

/-- The padded labels are the host's pad of the labels with the constant 2. -/
theorem clsP_eq (c : Dev nD) : clsP m c
    = pad S2000896 ![0] ![896] ![0] (clsA m c) (id (constantI S_ 32 2#32)) pads_S2000000_S2000896_08960 h_S_ := by
  show V m c main_v3 = _
  dsimp only [V, V0]
  simp only [hostOps0, hostOps0_1, hostOps0_2, hostOps0_3, hostOps0_4, hostOps0_5, hostOps0_6, hostOps0_7, List.flatten_cons, List.flatten_nil,
    List.append_nil, List.cons_append, List.nil_append]
  after_results
  rfl

/-! ## A block of a padded array is 2048 consecutive rows of it -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val :=
  (by decide +kernel : ∀ t : Fin grid0.N, win0_2.index t 0 = t.val)
theorem index3 : ∀ t : Fin cfg0.N, win0_3.index t 0 = t.val ∧ win0_3.index t 1 = 0 :=
  (by decide +kernel : ∀ t : Fin grid0.N, win0_3.index t 0 = t.val ∧ win0_3.index t 1 = 0)

/-- Row r of block t of the logits is row 2048 t + r of the padded logits. -/
theorem cout_block (c : Dev nD) (t : Fin cfg0.N) (r : Fin 2048) (k : Fin 2) (h : t.val * 2048 + r.val < 2000896) :
    (iblk m c 0 t : Vec F S2048x2 .f32) (ix2 r k) = coutP m c (ix2 ⟨t.val * 2048 + r.val, h⟩ k) := by
  unfold iblk
  rw [View.read_apply]
  show V m c main_v0 _ = V m c main_v0 _
  congr 1
  funext a
  apply Fin.ext
  match a with
  | ⟨0, _⟩ => show win0_0.index t 0 * 2048 + 1 * r.val = t.val * 2048 + r.val; rw [(index0 t).1]; omega
  | ⟨1, _⟩ => show win0_0.index t 1 * 2 + 1 * k.val = k.val; rw [(index0 t).2]; omega

/-- Row r of block t of the predictions is row 2048 t + r of the padded predictions. -/
theorem rout_block (c : Dev nD) (t : Fin cfg0.N) (r : Fin 2048) (k : Fin 4) (h : t.val * 2048 + r.val < 2000896) :
    (iblk m c 1 t : Vec F S2048x4 .f32) (ix2 r k) = routP m c (ix2 ⟨t.val * 2048 + r.val, h⟩ k) := by
  unfold iblk
  rw [View.read_apply]
  show V m c main_v1 _ = V m c main_v1 _
  congr 1
  funext a
  apply Fin.ext
  match a with
  | ⟨0, _⟩ => show win0_1.index t 0 * 2048 + 1 * r.val = t.val * 2048 + r.val; rw [(index1 t).1]; omega
  | ⟨1, _⟩ => show win0_1.index t 1 * 4 + 1 * k.val = k.val; rw [(index1 t).2]; omega

/-- Entry r of block t of the labels is entry 2048 t + r of the padded labels. -/
theorem cls_block (c : Dev nD) (t : Fin cfg0.N) (r : Fin 2048) (h : t.val * 2048 + r.val < 2000896) :
    (iblk m c 2 t : Vec F S2048 .i32) (ix1 r) = clsP m c (ix1 ⟨t.val * 2048 + r.val, h⟩) := by
  unfold iblk
  rw [View.read_apply]
  show V m c main_v3 _ = V m c main_v3 _
  congr 1
  funext a
  apply Fin.ext
  match a with
  | ⟨0, _⟩ => show win0_2.index t 0 * 2048 + 1 * r.val = t.val * 2048 + r.val; rw [index2 t]; omega

/-- Row r of block t of the targets is row 2048 t + r of the padded targets. -/
theorem reg_block (c : Dev nD) (t : Fin cfg0.N) (r : Fin 2048) (k : Fin 4) (h : t.val * 2048 + r.val < 2000896) :
    (iblk m c 3 t : Vec F S2048x4 .f32) (ix2 r k) = regP m c (ix2 ⟨t.val * 2048 + r.val, h⟩ k) := by
  unfold iblk
  rw [View.read_apply]
  show V m c main_v2 _ = V m c main_v2 _
  congr 1
  funext a
  apply Fin.ext
  match a with
  | ⟨0, _⟩ => show win0_3.index t 0 * 2048 + 1 * r.val = t.val * 2048 + r.val; rw [(index3 t).1]; omega
  | ⟨1, _⟩ => show win0_3.index t 1 * 4 + 1 * k.val = k.val; rw [(index3 t).2]; omega

/-! ## A padded array below row 2,000,000 is the input; the padded labels from there on are 2 -/

theorem coutP_inside (c : Dev nD) (n : Fin 2000000) (k : Fin 2) (h : n.val < 2000896) :
    coutP m c (ix2 ⟨n.val, h⟩ k) = coutA m c (ix2 n k) := by
  rw [coutP_eq]
  exact pad_apply_of_inside _ _ _ (coutA m c) _ pads_S2000000x2_S2000896x2_08960_000 h_S_ (ix2 ⟨n.val, h⟩ k) (ix2 n k) (fun a => by
    match a with
    | ⟨0, _⟩ => show n.val = 0 + n.val * (0 + 1); omega
    | ⟨1, _⟩ => show k.val = 0 + k.val * (0 + 1); omega)

theorem routP_inside (c : Dev nD) (n : Fin 2000000) (k : Fin 4) (h : n.val < 2000896) :
    routP m c (ix2 ⟨n.val, h⟩ k) = routA m c (ix2 n k) := by
  rw [routP_eq]
  exact pad_apply_of_inside _ _ _ (routA m c) _ pads_S2000000x4_S2000896x4_08960_000 h_S_ (ix2 ⟨n.val, h⟩ k) (ix2 n k) (fun a => by
    match a with
    | ⟨0, _⟩ => show n.val = 0 + n.val * (0 + 1); omega
    | ⟨1, _⟩ => show k.val = 0 + k.val * (0 + 1); omega)

theorem regP_inside (c : Dev nD) (n : Fin 2000000) (k : Fin 4) (h : n.val < 2000896) :
    regP m c (ix2 ⟨n.val, h⟩ k) = regA m c (ix2 n k) := by
  rw [regP_eq]
  exact pad_apply_of_inside _ _ _ (regA m c) _ pads_S2000000x4_S2000896x4_08960_000 h_S_ (ix2 ⟨n.val, h⟩ k) (ix2 n k) (fun a => by
    match a with
    | ⟨0, _⟩ => show n.val = 0 + n.val * (0 + 1); omega
    | ⟨1, _⟩ => show k.val = 0 + k.val * (0 + 1); omega)

theorem clsP_inside (c : Dev nD) (n : Fin 2000000) (h : n.val < 2000896) :
    clsP m c (ix1 ⟨n.val, h⟩) = clsA m c (ix1 n) := by
  rw [clsP_eq]
  exact pad_apply_of_inside _ _ _ (clsA m c) _ pads_S2000000_S2000896_08960 h_S_ (ix1 ⟨n.val, h⟩) (ix1 n) (fun a => by
    match a with
    | ⟨0, _⟩ => show n.val = 0 + n.val * (0 + 1); omega)

theorem clsP_outside (c : Dev nD) (i : ℕ) (h : i < 2000896) (hi : 2000000 ≤ i) :
    clsP m c (ix1 ⟨i, h⟩) = 2#32 := by
  rw [clsP_eq]
  refine (pad_apply_of_not_inside _ _ _ (clsA m c) _ pads_S2000000_S2000896_08960 h_S_ (ix1 ⟨i, h⟩) (0 : Fin 1) ?_).trans rfl
  show ¬(0 ≤ i ∧ (i - 0) % (0 + 1) = 0 ∧ (i - 0) / (0 + 1) < 2000000)
  omega

end Cert.KernelIdeal.Padded

end
-- ==== Proof.BlockSum.lean ====
/-
  Regrouping a sum over a range of naturals into consecutive blocks of equal length, and dropping a tail of zeros:
  in a commutative monoid

      sum over t < T of (sum over r < B of g (t * B + r))  =  sum over i < T * B of g i,

  and if g vanishes from N on and N ≤ L, the sum over i < L is the sum over i < N. Together: a total taken block by
  block over a padded length is the total over the true length when the padding contributes zeros. Also the closed
  form of a running total: adding the block totals one after another from zero gives the sum over the blocks so far.
-/
import Mathlib.Algebra.BigOperators.Fin
import Mathlib.Algebra.BigOperators.Group.Finset.Basic

namespace Cert.AnchorLoss

variable {M : Type*} [AddCommMonoid M]

/-- Blocks of length B, T of them, tile the range T * B. -/
theorem sum_blocks (g : ℕ → M) (B : ℕ) : ∀ T : ℕ,
    ∑ t ∈ Finset.range T, ∑ r : Fin B, g (t * B + r.val) = ∑ i ∈ Finset.range (T * B), g i
  | 0 => by simp
  | T + 1 => by
    rw [Finset.sum_range_succ, sum_blocks g B T, Nat.succ_mul, Finset.sum_range_add]
    congr 1
    exact (Finset.sum_range fun r => g (T * B + r)).symm

/-- A tail on which the summand vanishes can be dropped. -/
theorem sum_range_drop_tail (g : ℕ → M) (N L : ℕ) (hNL : N ≤ L) (hz : ∀ i, N ≤ i → g i = 0) :
    ∑ i ∈ Finset.range L, g i = ∑ i ∈ Finset.range N, g i := by
  obtain ⟨k, rfl⟩ := Nat.exists_eq_add_of_le hNL
  rw [Finset.sum_range_add, Finset.sum_eq_zero (fun x _ => hz (N + x) (Nat.le_add_right _ _)), add_zero]

/-- Block totals over a padded length T * B, the padding from N on contributing zeros, are the total over N. -/
theorem sum_blocks_eq (g : ℕ → M) (B T N : ℕ) (hN : N ≤ T * B) (hz : ∀ i, N ≤ i → g i = 0) :
    ∑ t ∈ Finset.range T, ∑ r : Fin B, g (t * B + r.val) = ∑ i : Fin N, g i.val := by
  rw [sum_blocks, sum_range_drop_tail g N (T * B) hN hz, Finset.sum_range]

end Cert.AnchorLoss
-- ==== Proof.KernelTotals.lean ====
/-
  The kernel's two result arrays, at the ideal instance. After grid point n each running total holds the sum, over the
  blocks 0..n, of the block's 2048 per-anchor terms read from the padded arrays (induction on the point: the first point
  starts from the zero it stores, every later one adds to what the point before left). The one write-back, after the last
  point, therefore writes the sum over all 977 blocks, which is the sum over the 2,000,000 true anchors because every
  padding row carries the label 2 and contributes zero.
-/
import proofs.«424538_j10943576670681_2_alg».proof.Proof.PointTotals
import proofs.«424538_j10943576670681_2_alg».proof.Proof.BlockValue
import proofs.«424538_j10943576670681_2_alg».proof.Proof.PaddedInputs
import proofs.«424538_j10943576670681_2_alg».proof.Proof.BlockSum
import proofs.«424538_j10943576670681_2_alg».proof.Proof.LossTerms

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.KernelIdeal.Totals Cert.KernelIdeal.BlockValue Cert.KernelIdeal.Padded Cert.AnchorLoss

variable (m : (ℓ : Loc nD τ sig) → Buf (Elt Ideal) ℓ)

/-- The classification term of padded row i (zero past the padded length, where there is no row). -/
def ceRow (c : Dev nD) (i : ℕ) : EReal :=
  if h : i < 2000896 then ceTerm (fun k => coutP m c (ix2 ⟨i, h⟩ k)) (clsP m c (ix1 ⟨i, h⟩)) else 0

/-- The regression term of padded row i. -/
def rlRow (c : Dev nD) (i : ℕ) : EReal :=
  if h : i < 2000896 then rlTerm (fun k => routP m c (ix2 ⟨i, h⟩ k)) (fun k => regP m c (ix2 ⟨i, h⟩ k)) (clsP m c (ix1 ⟨i, h⟩)) else 0

/-- Block t's classification total is the sum of its 2048 rows' terms. -/
theorem ce_block (c : Dev nD) (t : Fin cfg0.N) :
    ∑ r : Fin 2048, k0_pay9 (F := Ideal) (iblk m c 0 t) (iblk m c 2 t) (ix1 r) = ∑ r : Fin 2048, ceRow m c (t.val * 2048 + r.val) := by
  have hN : t.val < 977 := lt_of_lt_of_eq t.isLt N_0
  refine Finset.sum_congr rfl fun r _ => ?_
  have h : t.val * 2048 + r.val < 2000896 := by have := r.isLt; omega
  refine (ce_vec_apply (iblk m c 0 t) (iblk m c 2 t) r).trans ?_
  unfold ceRow
  rw [dif_pos h]
  exact congrArg₂ ceTerm (funext fun k => cout_block m c t r k h) (cls_block m c t r h)

/-- Block t's regression total is the sum of its 2048 rows' terms. -/
theorem rl_block (c : Dev nD) (t : Fin cfg0.N) :
    ∑ r : Fin 2048, rlTerm (fun k => (iblk m c 1 t : Vec Ideal S2048x4 .f32) (ix2 r k)) (fun k => (iblk m c 3 t : Vec Ideal S2048x4 .f32) (ix2 r k))
        ((iblk m c 2 t : Vec Ideal S2048 .i32) (ix1 r))
      = ∑ r : Fin 2048, rlRow m c (t.val * 2048 + r.val) := by
  have hN : t.val < 977 := lt_of_lt_of_eq t.isLt N_0
  refine Finset.sum_congr rfl fun r _ => ?_
  have h : t.val * 2048 + r.val < 2000896 := by have := r.isLt; omega
  unfold rlRow
  rw [dif_pos h]
  exact congr (congrArg₂ rlTerm (funext fun k => rout_block m c t r k h) (funext fun k => reg_block m c t r k h)) (cls_block m c t r h)

/-- THE RUNNING TOTALS. After point n the two staging buffers hold the sums over blocks 0..n. -/
theorem running (c : Dev nD) : ∀ (n : ℕ) (h : n < cfg0.N), outsAt0 m c n h
      = ((fun _ => ∑ t ∈ Finset.range (n + 1), ∑ r : Fin 2048, ceRow m c (t * 2048 + r.val) : Vec Ideal S1x1 .f32),
         (fun _ => ∑ t ∈ Finset.range (n + 1), ∑ r : Fin 2048, rlRow m c (t * 2048 + r.val) : Vec Ideal S1x1 .f32))
  | 0, h => by
    rw [outsAt0_A m c ⟨0, h⟩ rfl]
    refine Prod.ext ?_ ?_
    · dsimp only
      rw [first_ce, ce_store]
      funext i
      rw [Finset.sum_range_one, ce_block m c ⟨0, h⟩]
      show Ideal.ofBits .f32 0x00000000#32 + _ = _
      rw [Ideal.ofBits_zero_f32, zero_add]
    · dsimp only
      rw [first_rl, rl_store]
      funext i
      rw [Finset.sum_range_one, rl_block m c ⟨0, h⟩]
      show Ideal.ofBits .f32 0x00000000#32 + _ = _
      rw [Ideal.ofBits_zero_f32, zero_add]
  | n + 1, h => by
    have hN : cfg0.N = 977 := N_0
    have hB : ¬(⟨n + 1, h⟩ : Fin cfg0.N).val % 977 = 0 := by dsimp only; omega
    have ih := running c n (Nat.lt_of_succ_lt h)
    rw [outsAt0_B m c ⟨n + 1, h⟩ hB]
    refine Prod.ext ?_ ?_
    · dsimp only
      rw [next_ce, ce_store]
      funext i
      rw [Finset.sum_range_succ _ (n + 1), ce_block m c ⟨n + 1, h⟩]
      refine congrArg (· + _) ?_
      exact congrFun (congrArg Prod.fst ih) i
    · dsimp only
      rw [next_rl, rl_store]
      funext i
      rw [Finset.sum_range_succ _ (n + 1), rl_block m c ⟨n + 1, h⟩]
      refine congrArg (· + _) ?_
      exact congrFun (congrArg Prod.snd ih) i

end Cert.KernelIdeal.Loss

end
-- ==== Proof.LossResults.lean ====
/-
  The three results from the two totals: the classification loss is the classification total divided by 64, the
  regression loss the regression total divided by 16, and the loss their combination with weight 10 on the second.
-/
import proofs.«424538_j10943576670681_2_alg».proof.Proof.LossTerms

noncomputable section

namespace Cert.AnchorLoss

open Idealize.ShloMosaic

def closs (ce : EReal) : EReal := Ideal.div ce (Ideal.ofBits .f32 0x42800000#32)
def rloss (rl : EReal) : EReal := Ideal.div rl (Ideal.ofBits .f32 0x41800000#32)
def loss (ce rl : EReal) : EReal := closs ce + Ideal.ofBits .f32 0x41200000#32 * rloss rl

end Cert.AnchorLoss

end
-- ==== Proof.KernelResults.lean ====
/-
  The kernel's three results, at the ideal instance. Each running total is written back once, after the last of the 977
  points, so each result array ends holding its total over all anchors; the host lines after the call divide the
  classification total by 64, the regression total by 16, and add ten times the second quotient to the first.
-/
import proofs.«424538_j10943576670681_2_alg».proof.Proof.KernelTotals
import proofs.«424538_j10943576670681_2_alg».proof.Proof.LossResults

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.KernelIdeal.Totals Cert.KernelIdeal.BlockValue Cert.KernelIdeal.Padded Cert.AnchorLoss

variable (m : (ℓ : Loc nD τ sig) → Buf (Elt Ideal) ℓ) (ρ : Dev nD → PrngReg)

/-- A padding row contributes nothing to the classification total, -/
theorem ceRow_pad (c : Dev nD) (i : ℕ) (hi : 2000000 ≤ i) : ceRow m c i = 0 := by
  unfold ceRow
  split
  · rename_i h; rw [clsP_outside m c i h hi]; exact ceTerm_two _
  · rfl

/-- nor to the regression total. -/
theorem rlRow_pad (c : Dev nD) (i : ℕ) (hi : 2000000 ≤ i) : rlRow m c i = 0 := by
  unfold rlRow
  split
  · rename_i h; rw [clsP_outside m c i h hi]; exact rlTerm_two _ _
  · rfl

/-- The 977 block totals add up to the classification total over the 2,000,000 anchors. -/
theorem ce_all (c : Dev nD) :
    ∑ t ∈ Finset.range 977, ∑ r : Fin 2048, ceRow m c (t * 2048 + r.val) = ceTotal (coutA m c) (clsA m c) := by
  rw [sum_blocks_eq (ceRow m c) 2048 977 2000000 (by omega) (fun i hi => ceRow_pad m c i hi)]
  unfold ceTotal
  refine Finset.sum_congr rfl fun n _ => ?_
  have h : n.val < 2000896 := by have := n.isLt; omega
  unfold ceRow
  rw [dif_pos h]
  exact congrArg₂ ceTerm (funext fun k => coutP_inside m c n k h) (clsP_inside m c n h)

/-- The 977 block totals add up to the regression total over the 2,000,000 anchors. -/
theorem rl_all (c : Dev nD) :
    ∑ t ∈ Finset.range 977, ∑ r : Fin 2048, rlRow m c (t * 2048 + r.val) = rlTotal (routA m c) (regA m c) (clsA m c) := by
  rw [sum_blocks_eq (rlRow m c) 2048 977 2000000 (by omega) (fun i hi => rlRow_pad m c i hi)]
  unfold rlTotal
  refine Finset.sum_congr rfl fun n _ => ?_
  have h : n.val < 2000896 := by have := n.isLt; omega
  unfold rlRow
  rw [dif_pos h]
  exact congr (congrArg₂ rlTerm (funext fun k => routP_inside m c n k h) (funext fun k => regP_inside m c n k h)) (clsP_inside m c n h)

/-- The two result arrays' final contents: the totals. -/
abbrev ceArr (c : Dev nD) : Buf (Elt Ideal) ((c : Thread nD τ).loc main_v4_0) := fun _ => ceTotal (coutA m c) (clsA m c)
abbrev rlArr (c : Dev nD) : Buf (Elt Ideal) ((c : Thread nD τ).loc main_v4_1) := fun _ => rlTotal (routA m c) (regA m c) (clsA m c)

/-- The last grid point. -/
abbrev tLast : Fin cfg0.N := ⟨976, by rw [show cfg0.N = 977 from N_0]; decide⟩

/-- The one write-back of the classification total writes the total over all anchors. -/
theorem flushed_ce (c : Dev nD) (t : Fin cfg0.N) (hf : (cfg0.win 4).flush t = true) :
    (dats m 0 c).flushed 4 t = ((cfg0.win 4).blk t).view.read (Elt Ideal) (ceArr m c) := by
  have hN : cfg0.N = 977 := N_0
  have h976 : t.val = 976 := by have := (flush0_4 t).mp hf; have := t.isLt; omega
  funext y
  show (dats m 0 c).after 4 t _ = _
  rw [after0_4, running m c t.val t.isLt]
  dsimp only
  rw [h976]
  show ∑ t ∈ Finset.range 977, ∑ r : Fin 2048, ceRow m c (t * 2048 + r.val) = _
  rw [ce_all, View.read_apply]
  exact (cast_eq _ _).symm

/-- The one write-back of the regression total writes the total over all anchors. -/
theorem flushed_rl (c : Dev nD) (t : Fin cfg0.N) (hf : (cfg0.win 5).flush t = true) :
    (dats m 0 c).flushed 5 t = ((cfg0.win 5).blk t).view.read (Elt Ideal) (rlArr m c) := by
  have hN : cfg0.N = 977 := N_0
  have h976 : t.val = 976 := by have := (flush0_5 t).mp hf; have := t.isLt; omega
  funext y
  show (dats m 0 c).after 5 t _ = _
  rw [after0_5, running m c t.val t.isLt]
  dsimp only
  rw [h976]
  show ∑ t ∈ Finset.range 977, ∑ r : Fin 2048, rlRow m c (t * 2048 + r.val) = _
  rw [rl_all, View.read_apply]
  exact (cast_eq _ _).symm

/-- So the first result array ends holding the classification total (its one block is the whole array), -/
theorem final_ce (c : Dev nD) : (dats m 0 c).arrAt 4 cfg0.N = ceArr m c :=
  (dats m 0 c).arrAt_eq_of_cover 4 (ceArr m c) (flushed_ce m c) fun i =>
    ⟨tLast, (flush0_4 tLast).mpr rfl, by
      show i ∈ ((View.whole main_v4_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- and the second the regression total. -/
theorem final_rl (c : Dev nD) : (dats m 0 c).arrAt 5 cfg0.N = rlArr m c :=
  (dats m 0 c).arrAt_eq_of_cover 5 (rlArr m c) (flushed_rl m c) fun i =>
    ⟨tLast, (flush0_5 tLast).mpr rfl, by
      show i ∈ ((View.whole main_v4_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- What the region leaves in its two result arrays, as the host lines after it find them. -/
theorem tail_ce (c : Dev nD) :
    Pipeline.withArrays (cfgs 0).spec c (V0 m c) (fun w => (dats m 0 c).arrAt w (cfgs 0).N) (Proc.devRef .tc main_v4_0) = ceArr m c :=
  (Pipeline.withArrays_arr spec0 launch0.win.arr_inj c _ _ 4).trans (final_ce m c)
theorem tail_rl (c : Dev nD) :
    Pipeline.withArrays (cfgs 0).spec c (V0 m c) (fun w => (dats m 0 c).arrAt w (cfgs 0).N) (Proc.devRef .tc main_v4_1) = rlArr m c :=
  (Pipeline.withArrays_arr spec0 launch0.win.arr_inj c _ _ 5).trans (final_rl m c)

/-- The first result: the classification total over 64. -/
theorem res_closs (c : Dev nD) : Pipeline.afterTail₀ cfgs (dats m) 0 (V0 m) [hostOps1] c main_v6
    = fun _ => closs (ceTotal (coutA m c) (clsA m c)) := by
  unfold Pipeline.afterTail₀
  show StableHlo.after hostOps1 _ (Proc.devRef .tc main_v6) = _
  after_results
  rw [tail_ce]
  rfl

/-- The second result: the regression total over 16. -/
theorem res_rloss (c : Dev nD) : Pipeline.afterTail₀ cfgs (dats m) 0 (V0 m) [hostOps1] c main_v8
    = fun _ => rloss (rlTotal (routA m c) (regA m c) (clsA m c)) := by
  unfold Pipeline.afterTail₀
  show StableHlo.after hostOps1 _ (Proc.devRef .tc main_v8) = _
  after_results
  rw [tail_rl]
  rfl

/-- The third result: the first plus ten times the second. -/
theorem res_loss (c : Dev nD) : Pipeline.afterTail₀ cfgs (dats m) 0 (V0 m) [hostOps1] c main_v10
    = fun _ => loss (ceTotal (coutA m c) (clsA m c)) (rlTotal (routA m c) (regA m c) (clsA m c)) := by
  unfold Pipeline.afterTail₀
  show StableHlo.after hostOps1 _ (Proc.devRef .tc main_v10) = _
  after_results
  rw [tail_ce, tail_rl]
  rfl

/-- THE KERNEL'S RUN, READ: every weakly fair execution ends with the three results at the losses of the inputs'
    totals and the four inputs unchanged. -/
theorem run : θ_run defs (onTc (τ := τ) (main (F := Ideal))) ⟨m, fun _ => 0, ρ⟩ fun r => ∀ c : Dev nD,
      r.2.mem ((c.tc : Thread nD τ).loc main_v6) = (fun _ => closs (ceTotal (coutA m c) (clsA m c)))
      ∧ r.2.mem ((c.tc : Thread nD τ).loc main_v8) = (fun _ => rloss (rlTotal (routA m c) (regA m c) (clsA m c)))
      ∧ r.2.mem ((c.tc : Thread nD τ).loc main_v10) = (fun _ => loss (ceTotal (coutA m c) (clsA m c)) (rlTotal (routA m c) (regA m c) (clsA m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (res_closs m c),
     ((h c).2 main_v8 (Pipeline.mem_restRefs_of main_v8 (by decide) (by decide))).trans (res_rloss m c),
     ((h c).2 main_v10 (Pipeline.mem_restRefs_of main_v10 (by decide) (by decide))).trans (res_loss m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Loss

end
-- ==== Proof.RefPlainRun.lean ====
/-
  The reference's run over its 92 host operations written with the plain one-result builders. Fifty of the reference's
  operations belong to helper functions called from its main function (log-softmax, clip, take-along-axis, where) and
  address their buffers through typed references, whose transports along the buffers' type equations are identities
  here; written without them the list is the same list, operation by operation, and the contents it leaves in each
  result buffer are the reference's one-operation stages composed: the three results as the stages' last terms, the
  four inputs as they were.
-/
import proofs.«424538_j10943576670681_2_alg».proof.Proof.RefRead
import Idealize.ShloMosaic.Lib.StableHlo.Run

noncomputable section

namespace Cert.ReferenceIdeal.Plain

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The reference's operations, in order, each with the plain builder of its arity. -/
abbrev plainOps : List (HloOp τ sig (Elt F)) :=
  [ nullary main_c (constantI S_ 32 1#32),
    unary main_c main_v0 (broadcastInDim S2000000 ![] bcast_S_S2000000 : (⟨S_, .i32⟩ : BufTy).Contents (Elt F) → (⟨S2000000, .i32⟩ : BufTy).Contents (Elt F)),
    binary main_arg2 main_v0 main_v1 (cmpi .eq : (⟨S2000000, .i32⟩ : BufTy).Contents (Elt F) → (⟨S2000000, .i32⟩ : BufTy).Contents (Elt F) → (⟨S2000000, .i1⟩ : BufTy).Contents (Elt F)),
    nullary main_c_0 (constantI S_ 32 0#32),
    unary main_c_0 main_v2 (broadcastInDim S2000000 ![] bcast_S_S2000000 : (⟨S_, .i32⟩ : BufTy).Contents (Elt F) → (⟨S2000000, .i32⟩ : BufTy).Contents (Elt F)),
    binary main_arg2 main_v2 main_v3 (cmpi .eq : (⟨S2000000, .i32⟩ : BufTy).Contents (Elt F) → (⟨S2000000, .i32⟩ : BufTy).Contents (Elt F) → (⟨S2000000, .i1⟩ : BufTy).Contents (Elt F)),
    binary main_v1 main_v3 main_v4 (ori : (⟨S2000000, .i1⟩ : BufTy).Contents (Elt F) → (⟨S2000000, .i1⟩ : BufTy).Contents (Elt F) → (⟨S2000000, .i1⟩ : BufTy).Contents (Elt F)),
    nullary main_call0_cst (constant S_ .f32 0xFF800000#32),
    binary main_arg0 main_call0_cst main_call0_v0 ((fun x v => Host.reduce FloatOps.maximumf x v reducesTo_S2000000x2_S2000000_d1 h_S_) : (⟨S2000000x2, .f32⟩ : BufTy).Contents (Elt F) → (⟨S_, .f32⟩ : BufTy).Contents (Elt F) → (⟨S2000000, .f32⟩ : BufTy).Contents (Elt F)),
    nullary main_call0_cst_0 (constant S_ .f32 0xFF800000#32),
    unary main_call0_cst_0 main_call0_v1 ((broadcastInDim S2000000 ![] bcast_S_S2000000) : (⟨S_, .f32⟩ : BufTy).Contents (Elt F) → (⟨S2000000, .f32⟩ : BufTy).Contents (Elt F)),
    binary main_call0_v1 main_call0_v0 main_call0_v2 (maximumf : (⟨S2000000, .f32⟩ : BufTy).Contents (Elt F) → (⟨S2000000, .f32⟩ : BufTy).Contents (Elt F) → (⟨S2000000, .f32⟩ : BufTy).Contents (Elt F)),
    unary main_call0_v2 main_call0_v3 ((broadcastInDim S2000000x1 ![0] bcast_S2000000_S2000000x1_0) : (⟨S2000000, .f32⟩ : BufTy).Contents (Elt F) → (⟨S2000000x1, .f32⟩ : BufTy).Contents (Elt F)),
    unary main_call0_v3 main_call0_v4 ((broadcastInDim S2000000x2 ![0, 1] bcast_S2000000x1_S2000000x2_0_1) : (⟨S2000000x1, .f32⟩ : BufTy).Contents (Elt F) → (⟨S2000000x2, .f32⟩ : BufTy).Contents (Elt F)),
    binary main_arg0 main_call0_v4 main_call0_v5 (subf : (⟨S2000000x2, .f32⟩ : BufTy).Contents (Elt F) → (⟨S2000000x2, .f32⟩ : BufTy).Contents (Elt F) → (⟨S2000000x2, .f32⟩ : BufTy).Contents (Elt F)),
    unary main_call0_v5 main_call0_v6 (Host.exp : (⟨S2000000x2, .f32⟩ : BufTy).Contents (Elt F) → (⟨S2000000x2, .f32⟩ : BufTy).Contents (Elt F)),
    nullary main_call0_cst_1 (constant S_ .f32 0x00000000#32),
    binary main_call0_v6 main_call0_cst_1 main_call0_v7 ((fun x v => Host.reduceAdd x v reducesTo_S2000000x2_S2000000_d1 h_S_) : (⟨S2000000x2, .f32⟩ : BufTy).Contents (Elt F) → (⟨S_, .f32⟩ : BufTy).Contents (Elt F) → (⟨S2000000, .f32⟩ : BufTy).Contents (Elt F)),
    unary main_call0_v7 main_call0_v8 ((broadcastInDim S2000000x1 ![0] bcast_S2000000_S2000000x1_0) : (⟨S2000000, .f32⟩ : BufTy).Contents (Elt F) → (⟨S2000000x1, .f32⟩ : BufTy).Contents (Elt F)),
    unary main_call0_v8 main_call0_v9 (Host.log : (⟨S2000000x1, .f32⟩ : BufTy).Contents (Elt F) → (⟨S2000000x1, .f32⟩ : BufTy).Contents (Elt F)),
    unary main_call0_v9 main_call0_v10 ((broadcastInDim S2000000x2 ![0, 1] bcast_S2000000x1_S2000000x2_0_1) : (⟨S2000000x1, .f32⟩ : BufTy).Contents (Elt F) → (⟨S2000000x2, .f32⟩ : BufTy).Contents (Elt F)),
    binary main_call0_v5 main_call0_v10 main_v5 (subf : (⟨S2000000x2, .f32⟩ : BufTy).Contents (Elt F) → (⟨S2000000x2, .f32⟩ : BufTy).Contents (Elt F) → (⟨S2000000x2, .f32⟩ : BufTy).Contents (Elt F)),
    nullary main_c_1 (constantI S_ 32 0#32),
    nullary main_c_2 (constantI S_ 32 1#32),
    unary main_c_1 main_call1_v0 (id : (⟨S_, .i32⟩ : BufTy).Contents (Elt F) → (⟨S_, .i32⟩ : BufTy).Contents (Elt F)),
    unary main_call1_v0 main_call1_v1 ((broadcastInDim S2000000 ![] bcast_S_S2000000) : (⟨S_, .i32⟩ : BufTy).Contents (Elt F) → (⟨S2000000, .i32⟩ : BufTy).Contents (Elt F)),
    binary main_call1_v1 main_arg2 main_call1_v2 (maxsi : (⟨S2000000, .i32⟩ : BufTy).Contents (Elt F) → (⟨S2000000, .i32⟩ : BufTy).Contents (Elt F) → (⟨S2000000, .i32⟩ : BufTy).Contents (Elt F)),
    unary main_c_2 main_call1_v3 (id : (⟨S_, .i32⟩ : BufTy).Contents (Elt F) → (⟨S_, .i32⟩ : BufTy).Contents (Elt F)),
    unary main_call1_v3 main_call1_v4 ((broadcastInDim S2000000 ![] bcast_S_S2000000) : (⟨S_, .i32⟩ : BufTy).Contents (Elt F) → (⟨S2000000, .i32⟩ : BufTy).Contents (Elt F)),
    binary main_call1_v4 main_call1_v2 main_v6 (minsi : (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    nullary main_call2_c (constantI S_ 32 0#32),
    unary main_call2_c main_call2_v0 ((broadcastInDim S2000000x1 ![] bcast_S_S2000000x1) : (⟨S_, .i32⟩ : BufTy).Contents (Elt F) → (⟨S2000000x1, .i32⟩ : BufTy).Contents (Elt F)),
    binary main_v7 main_call2_v0 main_call2_v1 ((cmpi .slt) : (⟨S2000000x1, .i32⟩ : BufTy).Contents (Elt F) → (⟨S2000000x1, .i32⟩ : BufTy).Contents (Elt F) → (⟨S2000000x1, .i1⟩ : BufTy).Contents (Elt F)),
    nullary main_call2_c_0 (constantI S_ 32 2#32),
    unary main_call2_c_0 main_call2_v2 ((broadcastInDim S2000000x1 ![] bcast_S_S2000000x1) : (⟨S_, .i32⟩ : BufTy).Contents (Elt F) → (⟨S2000000x1, .i32⟩ : BufTy).Contents (Elt F)),
    binary main_v7 main_call2_v2 main_call2_v3 (addi : (⟨S2000000x1, .i32⟩ : BufTy).Contents (Elt F) → (⟨S2000000x1, .i32⟩ : BufTy).Contents (Elt F) → (⟨S2000000x1, .i32⟩ : BufTy).Contents (Elt F)),
    ternary main_call2_v1 main_call2_v3 main_v7 main_call2_v4 (select : (⟨S2000000x1, .i1⟩ : BufTy).Contents (Elt F) → (⟨S2000000x1, .i32⟩ : BufTy).Contents (Elt F) → (⟨S2000000x1, .i32⟩ : BufTy).Contents (Elt F) → (⟨S2000000x1, .i32⟩ : BufTy).Contents (Elt F)),
    reshape main_call2_v4 main_call2_v5 rfl shapeCasts_S2000000x1_S2000000x1x1,
    nullary main_call2_c_1 (constantI S1 32 1#32),
    nullary main_call2_c_2 (constantI S_ 32 0#32),
    unary main_call2_c_2 main_call2_v6 ((broadcastInDim S2000000x1x1 ![] bcast_S_S2000000x1x1) : (⟨S_, .i32⟩ : BufTy).Contents (Elt F) → (⟨S2000000x1x1, .i32⟩ : BufTy).Contents (Elt F)),
    binary main_call2_v5 main_call2_v6 main_call2_v7 ((cmpi .sge) : (⟨S2000000x1x1, .i32⟩ : BufTy).Contents (Elt F) → (⟨S2000000x1x1, .i32⟩ : BufTy).Contents (Elt F) → (⟨S2000000x1x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S2000000x1x1 ![0, 1, 2] bcast_S1x1x1_S2000000x1x1_0_1_2) : (⟨S1x1x1, .i32⟩ : BufTy).Contents (Elt F) → (⟨S2000000x1x1, .i32⟩ : BufTy).Contents (Elt F)),
    binary main_call2_v5 main_call2_v9 main_call2_v10 ((cmpi .sle) : (⟨S2000000x1x1, .i32⟩ : BufTy).Contents (Elt F) → (⟨S2000000x1x1, .i32⟩ : BufTy).Contents (Elt F) → (⟨S2000000x1x1, .i1⟩ : BufTy).Contents (Elt F)),
    binary main_call2_v7 main_call2_v10 main_call2_v11 (andi : (⟨S2000000x1x1, .i1⟩ : BufTy).Contents (Elt F) → (⟨S2000000x1x1, .i1⟩ : BufTy).Contents (Elt F) → (⟨S2000000x1x1, .i1⟩ : BufTy).Contents (Elt F)),
    nullary main_call2_c_3 (constantI S_ 1 1#1),
    binary main_call2_v11 main_call2_c_3 main_call2_v12 ((fun x v => Host.reduce IntOp.andi x v reducesTo_S2000000x1x1_S2000000x1_d2 h_S_) : (⟨S2000000x1x1, .i1⟩ : BufTy).Contents (Elt F) → (⟨S_, .i1⟩ : BufTy).Contents (Elt F) → (⟨S2000000x1, .i1⟩ : BufTy).Contents (Elt F)),
    binary main_v5 main_call2_v5 main_call2_v13 ((fun x i => Host.gather gather_S2000000x2_S2000000x1x1_S2000000x1_n_1_0_0_1_2_11 x i) : (⟨S2000000x2, .f32⟩ : BufTy).Contents (Elt F) → (⟨S2000000x1x1, .i32⟩ : BufTy).Contents (Elt F) → (⟨S2000000x1, .f32⟩ : BufTy).Contents (Elt F)),
    nullary main_call2_cst (constant S_ .f32 0x7FC00000#32),
    unary main_call2_cst main_call2_v14 ((broadcastInDim S2000000x1 ![] bcast_S_S2000000x1) : (⟨S_, .f32⟩ : BufTy).Contents (Elt F) → (⟨S2000000x1, .f32⟩ : BufTy).Contents (Elt F)),
    ternary main_call2_v12 main_call2_v13 main_call2_v14 main_v8 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    reshape main_v8 main_v9 rfl shapeCasts_S2000000x1_S2000000,
    unary main_v9 main_v10 (Host.negf : (⟨S2000000, .f32⟩ : BufTy).Contents (Elt F) → (⟨S2000000, .f32⟩ : BufTy).Contents (Elt F)),
    nullary main_cst (constant S_ .f32 0x00000000#32),
    unary main_cst main_call3_v0 (id : (⟨S_, .f32⟩ : BufTy).Contents (Elt F) → (⟨S_, .f32⟩ : BufTy).Contents (Elt F)),
    unary main_call3_v0 main_call3_v1 ((broadcastInDim S2000000 ![] bcast_S_S2000000) : (⟨S_, .f32⟩ : BufTy).Contents (Elt F) → (⟨S2000000, .f32⟩ : BufTy).Contents (Elt F)),
    ternary main_v4 main_v10 main_call3_v1 main_v11 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    nullary main_cst_3 (constant S_ .f32 0x00000000#32),
    binary main_v11 main_cst_3 main_v12 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_4 (constant S_ .f32 0x42800000#32),
    binary main_v12 main_cst_4 main_v13 (Host.divf : (⟨S_, .f32⟩ : BufTy).Contents (Elt F) → (⟨S_, .f32⟩ : BufTy).Contents (Elt F) → (⟨S_, .f32⟩ : BufTy).Contents (Elt F)),
    binary main_arg1 main_arg3 main_v14 (subf : (⟨S2000000x4, .f32⟩ : BufTy).Contents (Elt F) → (⟨S2000000x4, .f32⟩ : BufTy).Contents (Elt F) → (⟨S2000000x4, .f32⟩ : BufTy).Contents (Elt F)),
    unary main_v14 main_v15 (Host.absf : (⟨S2000000x4, .f32⟩ : BufTy).Contents (Elt F) → (⟨S2000000x4, .f32⟩ : BufTy).Contents (Elt F)),
    nullary main_cst_5 (constant S_ .f32 0x3F800000#32),
    unary main_cst_5 main_v16 (broadcastInDim S2000000x4 ![] bcast_S_S2000000x4 : (⟨S_, .f32⟩ : BufTy).Contents (Elt F) → (⟨S2000000x4, .f32⟩ : BufTy).Contents (Elt F)),
    binary main_v15 main_v16 main_v17 (cmpf .olt : (⟨S2000000x4, .f32⟩ : BufTy).Contents (Elt F) → (⟨S2000000x4, .f32⟩ : BufTy).Contents (Elt F) → (⟨S2000000x4, .i1⟩ : BufTy).Contents (Elt F)),
    nullary main_cst_6 (constant S_ .f32 0x3F000000#32),
    unary main_cst_6 main_v18 (broadcastInDim S2000000x4 ![] bcast_S_S2000000x4 : (⟨S_, .f32⟩ : BufTy).Contents (Elt F) → (⟨S2000000x4, .f32⟩ : BufTy).Contents (Elt F)),
    binary main_v18 main_v14 main_v19 (mulf : (⟨S2000000x4, .f32⟩ : BufTy).Contents (Elt F) → (⟨S2000000x4, .f32⟩ : BufTy).Contents (Elt F) → (⟨S2000000x4, .f32⟩ : BufTy).Contents (Elt F)),
    binary main_v19 main_v14 main_v20 (mulf : (⟨S2000000x4, .f32⟩ : BufTy).Contents (Elt F) → (⟨S2000000x4, .f32⟩ : BufTy).Contents (Elt F) → (⟨S2000000x4, .f32⟩ : BufTy).Contents (Elt F)),
    nullary main_cst_7 (constant S_ .f32 0x3F000000#32),
    unary main_cst_7 main_v21 (broadcastInDim S2000000x4 ![] bcast_S_S2000000x4 : (⟨S_, .f32⟩ : BufTy).Contents (Elt F) → (⟨S2000000x4, .f32⟩ : BufTy).Contents (Elt F)),
    binary main_v15 main_v21 main_v22 (subf : (⟨S2000000x4, .f32⟩ : BufTy).Contents (Elt F) → (⟨S2000000x4, .f32⟩ : BufTy).Contents (Elt F) → (⟨S2000000x4, .f32⟩ : BufTy).Contents (Elt F)),
    ternary main_v17 main_v20 main_v22 main_v23 (select : (⟨S2000000x4, .i1⟩ : BufTy).Contents (Elt F) → (⟨S2000000x4, .f32⟩ : BufTy).Contents (Elt F) → (⟨S2000000x4, .f32⟩ : BufTy).Contents (Elt F) → (⟨S2000000x4, .f32⟩ : BufTy).Contents (Elt F)),
    nullary main_cst_8 (constant S_ .f32 0x00000000#32),
    binary main_v23 main_cst_8 main_v24 ((fun x v => Host.reduceAdd x v reducesTo_S2000000x4_S2000000_d1 h_S_) : (⟨S2000000x4, .f32⟩ : BufTy).Contents (Elt F) → (⟨S_, .f32⟩ : BufTy).Contents (Elt F) → (⟨S2000000, .f32⟩ : BufTy).Contents (Elt F)),
    nullary main_cst_9 (constant S_ .f32 0x40800000#32),
    unary main_cst_9 main_v25 (broadcastInDim S2000000 ![] bcast_S_S2000000 : (⟨S_, .f32⟩ : BufTy).Contents (Elt F) → (⟨S2000000, .f32⟩ : BufTy).Contents (Elt F)),
    binary main_v24 main_v25 main_v26 (Host.divf : (⟨S2000000, .f32⟩ : BufTy).Contents (Elt F) → (⟨S2000000, .f32⟩ : BufTy).Contents (Elt F) → (⟨S2000000, .f32⟩ : BufTy).Contents (Elt F)),
    nullary main_cst_10 (constant S_ .f32 0x00000000#32),
    unary main_cst_10 main_call5_v0 (id : (⟨S_, .f32⟩ : BufTy).Contents (Elt F) → (⟨S_, .f32⟩ : BufTy).Contents (Elt F)),
    unary main_call5_v0 main_call5_v1 ((broadcastInDim S2000000 ![] bcast_S_S2000000) : (⟨S_, .f32⟩ : BufTy).Contents (Elt F) → (⟨S2000000, .f32⟩ : BufTy).Contents (Elt F)),
    ternary main_v1 main_v26 main_call5_v1 main_v27 (select : (⟨S2000000, .i1⟩ : BufTy).Contents (Elt F) → (⟨S2000000, .f32⟩ : BufTy).Contents (Elt F) → (⟨S2000000, .f32⟩ : BufTy).Contents (Elt F) → (⟨S2000000, .f32⟩ : BufTy).Contents (Elt F)),
    nullary main_cst_11 (constant S_ .f32 0x00000000#32),
    binary main_v27 main_cst_11 main_v28 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_12 (constant S_ .f32 0x41800000#32),
    binary main_v28 main_cst_12 main_v29 (Host.divf : (⟨S_, .f32⟩ : BufTy).Contents (Elt F) → (⟨S_, .f32⟩ : BufTy).Contents (Elt F) → (⟨S_, .f32⟩ : BufTy).Contents (Elt F)),
    nullary main_cst_13 (constant S_ .f32 0x41200000#32),
    binary main_cst_13 main_v29 main_v30 (mulf : (⟨S_, .f32⟩ : BufTy).Contents (Elt F) → (⟨S_, .f32⟩ : BufTy).Contents (Elt F) → (⟨S_, .f32⟩ : BufTy).Contents (Elt F)),
    binary main_v13 main_v30 main_v31 (addf : (⟨S_, .f32⟩ : BufTy).Contents (Elt F) → (⟨S_, .f32⟩ : BufTy).Contents (Elt F) → (⟨S_, .f32⟩ : BufTy).Contents (Elt F)) ]

/-- The row-maximum reduce and the take's range-check reduce, for ANY function in the reducer's place: the operation
    through typed references is the plain one, whatever the function is. -/
theorem rowMax_eq (g : (⟨S2000000x2, .f32⟩ : BufTy).Contents (Elt F) → (⟨S_, .f32⟩ : BufTy).Contents (Elt F) → (⟨S2000000, .f32⟩ : BufTy).Contents (Elt F)) :
    (TRef.binary (TRef.of (T := ⟨S2000000x2, .f32⟩) main_arg0) (TRef.of (T := ⟨S_, .f32⟩) main_call0_cst) (TRef.of (T := ⟨S2000000, .f32⟩) main_call0_v0) g : HloOp τ sig (Elt F))
      = binary main_arg0 main_call0_cst main_call0_v0 g := rfl
theorem rangeAll_eq (g : (⟨S2000000x1x1, .i1⟩ : BufTy).Contents (Elt F) → (⟨S_, .i1⟩ : BufTy).Contents (Elt F) → (⟨S2000000x1, .i1⟩ : BufTy).Contents (Elt F)) :
    (TRef.binary (TRef.of (T := ⟨S2000000x1x1, .i1⟩) main_call2_v11) (TRef.of (T := ⟨S_, .i1⟩) main_call2_c_3) (TRef.of (T := ⟨S2000000x1, .i1⟩) main_call2_v12) g : HloOp τ sig (Elt F))
      = binary main_call2_v11 main_call2_c_3 main_call2_v12 g := rfl

set_option maxRecDepth 65536 in
set_option maxHeartbeats 4000000 in
/-- It is the reference's own list: operation by operation, the operation through typed references is the plain one. -/
theorem ops_eq : (ops : List (HloOp τ sig (Elt F))) = plainOps := by
  unfold ops plainOps
  iterate 8 (refine congrArg₂ List.cons rfl ?_)
  refine congrArg₂ List.cons (rowMax_eq _) ?_
  iterate 39 (refine congrArg₂ List.cons rfl ?_)
  refine congrArg₂ List.cons (rangeAll_eq _) ?_
  iterate 43 (refine congrArg₂ List.cons rfl ?_)
  rfl

set_option maxRecDepth 8192 in
set_option maxHeartbeats 4000000 in
/-- The classification loss's buffer after the run. -/
theorem result_closs (M : Valuation τ sig (Elt F)) :
    after ops M (Proc.devRef .tc main_v13) = val_main_v13 (F := F) (M (Proc.devRef .tc main_arg0)) (M (Proc.devRef .tc main_arg2)) := by
  rw [ops_eq]
  after_results_simp <;> rfl

set_option maxRecDepth 8192 in
set_option maxHeartbeats 4000000 in
/-- The regression loss's buffer after the run. -/
theorem result_rloss (M : Valuation τ sig (Elt F)) :
    after ops M (Proc.devRef .tc main_v29)
      = val_main_v29 (F := F) (M (Proc.devRef .tc main_arg1)) (M (Proc.devRef .tc main_arg2)) (M (Proc.devRef .tc main_arg3)) := by
  rw [ops_eq]
  after_results_simp <;> rfl

set_option maxRecDepth 8192 in
set_option maxHeartbeats 4000000 in
/-- The combined loss's buffer after the run. -/
theorem result_loss (M : Valuation τ sig (Elt F)) :
    after ops M (Proc.devRef .tc main_v31)
      = val_main_v31 (F := F) (M (Proc.devRef .tc main_arg0)) (M (Proc.devRef .tc main_arg1)) (M (Proc.devRef .tc main_arg2)) (M (Proc.devRef .tc main_arg3)) := by
  rw [ops_eq]
  after_results_simp <;> rfl

set_option maxRecDepth 8192 in
set_option maxHeartbeats 4000000 in
/-- On every device, from any memory with zero counters: every weakly fair execution of the reference terminates with the
    three results at the stages' last terms of the inputs, and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = val_main_v13 (F := F) (m ((c.tc : Thread nD τ).loc main_arg0)) (m ((c.tc : Thread nD τ).loc main_arg2))
      ∧ r.2.mem ((c.tc : Thread nD τ).loc main_v29) = val_main_v29 (F := F) (m ((c.tc : Thread nD τ).loc main_arg1)) (m ((c.tc : Thread nD τ).loc main_arg2)) (m ((c.tc : Thread nD τ).loc main_arg3))
      ∧ r.2.mem ((c.tc : Thread nD τ).loc main_v31) = val_main_v31 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (result_closs _),
      (h c main_v29).trans (result_rloss _),
      (h c main_v31).trans (result_loss _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Plain

end
-- ==== Proof.LibTakeAlongLast.lean ====
/-
  One element per row of a two-axis table, chosen along the LAST axis by a column of start indices, read at an index.

  `jnp.take_along_axis(x, idx, axis = -1)` of `x : [N, C]` with `idx : [N, 1]` lowers to a gather in which the first
  operand axis is a batching axis paired with the start indices' first axis, the second is collapsed and indexed by the
  start index, and every slice is one element: start indices `[N, 1, 1]`, result `[N, 1]`. The result element of row i
  is the table's element of row i whose column is the start index `idx[i, 0, 0]`, read as a signed integer and clamped
  into `[0, C - 1]`.

  On the row axis the operand index is the batching coordinate alone (no start, no offset), and that is the row; on
  the column axis it is the clamped start alone, read at the start-indices index `[i, 0, 0]` (`takeLastDims_siIdx`).
-/
import Idealize.ShloMosaic.Lib.ValueIdx

noncomputable section

namespace Idealize.ShloMosaic.TakeAlongLast

open Idealize.ShloMosaic Idealize.ShloMosaic.ValueIdx

variable {α : Type}

/-- The clamped position a signed word names on an axis of extent `C` (a slice of one element). -/
abbrev clampPos {w : Nat} (C : Nat) (hC : 0 < C) (v : BitVec w) : Fin C := ⟨min v.toInt.toNat (C - 1), by omega⟩

/-- The dimension numbers of the row-wise take along the last axis. -/
abbrev takeLastDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index at which row `i` reads the one component of its start index is `[i, 0, 0]`: the
    row on the batching axis, the result's unit axis on the middle axis, the component on the last. -/
theorem takeLastDims_siIdx {N C : Nat}
    (wf : GatherDims.WF ⟨2, ![N, C]⟩ ⟨3, ![N, 1, 1]⟩ ⟨2, ![N, 1]⟩ [] [1] [0] [1] [0] 2 ![1, 1])
    (i : Fin N) (c : Fin (takeLastDims N C wf).startIndexMap.length) :
    (takeLastDims N C wf).siIdx (ix2 i (0 : Fin 1)) c = ix3 i (0 : Fin 1) (0 : Fin 1) := by
  have hc : c.val = 0 := by
    have := c.isLt
    change c.val < 1 at this
    omega
  funext b; refine Fin.ext ?_
  match b with
  | ⟨0, _⟩ => rfl
  | ⟨1, _⟩ => rfl
  | ⟨2, _⟩ => exact hc

/-- THE TAKE AT ROW `i`: the table at row `i` and column `idx[i, 0, 0]` (signed, clamped). -/
theorem gather_takeLast_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (i : Fin N) :
    Host.gather (takeLastDims N C wf) x idx (ix2 i (0 : Fin 1))
      = x (ix2 i (clampPos C hC (idx (ix3 i (0 : Fin 1) (0 : Fin 1))))) := by
  unfold Host.gather
  refine congrArg x (funext fun a => Fin.ext ?_)
  match a with
  | ⟨0, _⟩ =>
    -- the row axis is the batching axis: no start, no offset, and the batching coordinate is the row
    show (takeLastDims N C wf).start (ix2 i (0 : Fin 1)) idx 0 + (takeLastDims N C wf).batchCoord (ix2 i (0 : Fin 1)) 0
      + (takeLastDims N C wf).offCoord (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (takeLastDims N C wf).operandBatchingDims from List.mem_singleton.mpr rfl)]
    rfl
  | ⟨1, _⟩ =>
    -- the column axis is collapsed and indexed: the clamped start alone
    show (takeLastDims N C wf).start (ix2 i (0 : Fin 1)) idx 1 + (takeLastDims N C wf).batchCoord (ix2 i (0 : Fin 1)) 1
      + (takeLastDims N C wf).offCoord (ix2 i (0 : Fin 1)) 1 = min (idx (ix3 i (0 : Fin 1) (0 : Fin 1))).toInt.toNat (C - 1)
    rw [GatherDims.batchCoord_eq_zero _ _ _ (fun h => absurd (List.mem_singleton.mp h) (show ¬ ((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeLastDims N C wf).startIndexMap from List.mem_singleton.mpr rfl)]
    rw [takeLastDims_siIdx]
    rfl

end Idealize.ShloMosaic.TakeAlongLast

end
-- ==== Proof.RefValue.lean ====
/-
  The reference's two per-anchor vectors and its three results, at the ideal instance. Anchor n's entry of the masked
  cross-entropy vector is the classification term of row n: the take along the class axis reads the log-softmax at the
  label clipped to [0, 1], which for a label 0 or 1 is the label itself (and in range, so the take's fill value is never
  chosen), and for any other label the entry is masked to zero whatever was taken. Anchor n's entry of the masked
  smooth-L1 vector is the regression term of row n. The host sums each vector from zero over all anchors.
-/
import proofs.«424538_j10943576670681_2_alg».proof.Proof.RefRead
import proofs.«424538_j10943576670681_2_alg».proof.Proof.LossTerms
import proofs.«424538_j10943576670681_2_alg».proof.Proof.LossResults
import proofs.«424538_j10943576670681_2_alg».proof.Proof.LibTakeAlongLast
import Idealize.ShloMosaic.PureOps.Reduce
import Idealize.ShloMosaic.Lib.StableHlo.Predicate

noncomputable section

namespace Cert.ReferenceIdeal.RefLoss

open Cert.ReferenceIdeal Cert.ReferenceIdeal.Gen Cert.ReferenceIdeal.Read Cert.AnchorLoss Idealize.ShloMosaic Idealize.ShloMosaic.ValueIdx
open Idealize.ShloMosaic.TakeAlongLast

variable (x0 : (⟨S2000000x2, .f32⟩ : BufTy).Contents (Elt Ideal)) (x1 x3 : (⟨S2000000x4, .f32⟩ : BufTy).Contents (Elt Ideal))
  (x2 : (⟨S2000000, .i32⟩ : BufTy).Contents (Elt Ideal))

/-! ## The log-softmax of row n -/

theorem shift_apply (n : Fin 2000000) : val_main_call0_v2 (F := Ideal) x0 (ix1 n) = rowShift (fun k => x0 (ix2 n k)) := by
  have hR : S2000000x2.Reduces [1] S2000000 := by decide
  rw [val_main_call0_v2_apply, val_main_call0_v1_apply, val_main_call0_cst_0_apply]
  unfold val_main_call0_v0 rowShift
  show max (Ideal.ofBits .f32 0xFF800000#32) (Host.reduce FloatOps.maximumf x0 (val_main_call0_cst (F := Ideal)) reducesTo_S2000000x2_S2000000_d1 h_S_ (ix1 n)) = _
  refine congrArg (max _) ?_
  refine (Host.reduce_eq_fold_single (FloatOps.maximumf (F := Ideal) (φ := .f32)) (x0 : S2000000x2.Idx → Ideal .f32) _ reducesTo_S2000000x2_S2000000_d1 hR h_S_ (ix1 n)).trans ?_
  exact congrArg (fun f => Finset.fold max negInf f (Finset.univ : Finset (Fin 2)))
    (funext fun k => congrArg x0 (funext fun a => Fin.ext (by match a with | ⟨0, _⟩ => rfl | ⟨1, _⟩ => rfl)))

theorem shifted_apply (n : Fin 2000000) (k : Fin 2) :
    val_main_call0_v5 (F := Ideal) x0 (ix2 n k) = x0 (ix2 n k) - rowShift (fun k' => x0 (ix2 n k')) := by
  rw [val_main_call0_v5_apply, val_main_call0_v4_apply, val_main_call0_v3_apply]
  have e : idx_main_call0_v3 (idx_main_call0_v4 (ix2 n k)) = ix1 n :=
    funext fun a => Fin.ext (by match a with | ⟨0, _⟩ => rfl)
  rw [e, shift_apply]
  rfl

theorem expsum_apply (n : Fin 2000000) :
    val_main_call0_v7 (F := Ideal) x0 (ix1 n) = ∑ k : Fin 2, Ideal.exp (x0 (ix2 n k) - rowShift (fun k' => x0 (ix2 n k'))) := by
  rw [val_main_call0_v7_apply]
  show Ideal.ofBits .f32 0x00000000#32 + _ = _
  rw [Ideal.ofBits_zero_f32, zero_add]
  refine Finset.sum_congr rfl fun k _ => ?_
  have e : idx_main_call0_v7 (ix1 n) k = ix2 n k :=
    funext fun a => Fin.ext (by match a with | ⟨0, _⟩ => rfl | ⟨1, _⟩ => rfl)
  rw [e, val_main_call0_v6_apply, shifted_apply]
  rfl

theorem logp_apply (n : Fin 2000000) (k : Fin 2) :
    val_main_v5 (F := Ideal) x0 (ix2 n k) = logp (fun k' => x0 (ix2 n k')) k := by
  rw [val_main_v5_apply, val_main_call0_v10_apply, val_main_call0_v9_apply, val_main_call0_v8_apply]
  have e : idx_main_call0_v8 (idx_main_call0_v10 (ix2 n k)) = ix1 n :=
    funext fun a => Fin.ext (by match a with | ⟨0, _⟩ => rfl)
  rw [e, expsum_apply, shifted_apply]
  rfl

/-! ## The take along the class axis -/

/-- The label clipped to [0, 1], then shifted by 2 if negative (it never is): the start index the take reads. -/
def clipIdx (c : BitVec 32) : BitVec 32 :=
  Scalar.select (IntOp.cmpi .slt (IntOp.minsi 1#32 (IntOp.maxsi 0#32 c)) 0#32)
    (IntOp.addi (IntOp.minsi 1#32 (IntOp.maxsi 0#32 c)) 2#32) (IntOp.minsi 1#32 (IntOp.maxsi 0#32 c))

theorem start_apply (n : Fin 2000000) : val_main_call2_v5 (F := Ideal) x2 (ix3 n (0 : Fin 1) (0 : Fin 1)) = clipIdx (x2 (ix1 n)) := by
  rw [val_main_call2_v5_apply, val_main_call2_v4_apply, val_main_call2_v1_apply, val_main_call2_v3_apply, val_main_v7_apply,
    val_main_call2_v0_apply, val_main_call2_v2_apply, val_main_call2_c_apply, val_main_call2_c_0_apply, val_main_v6_apply,
    val_main_call1_v4_apply, val_main_call1_v2_apply, val_main_call1_v1_apply, val_main_call1_v3_apply, val_main_call1_v0_apply,
    val_main_c_2_apply, val_main_c_1_apply]
  have e : idx_main_v7 (idx_main_call2_v5 (ix3 n (0 : Fin 1) (0 : Fin 1))) = ix1 n :=
    funext fun a => Fin.ext (by match a with | ⟨0, _⟩ => show ((n.val * 1 + 0) * 1 + 0) / 1 = n.val; omega)
  rw [e]
  rfl

/-- The take's in-range mask at row n: the start index is at least 0 and at most 1. -/
theorem inrange_apply (n : Fin 2000000) :
    val_main_call2_v12 (F := Ideal) x2 (ix2 n (0 : Fin 1))
      = IntOp.andi (IntOp.andi (IntOp.cmpi .sge (clipIdx (x2 (ix1 n))) 0#32) (IntOp.cmpi .sle (clipIdx (x2 (ix1 n))) 1#32)) 1#1 := by
  have hR : S2000000x1x1.Reduces [2] S2000000x1 := by decide
  unfold val_main_call2_v12
  refine (Host.reduce_eq_fold_single IntOp.andi _ _ reducesTo_S2000000x1x1_S2000000x1_d2 hR h_S_ (ix2 n (0 : Fin 1))).trans ?_
  show Finset.fold IntOp.andi 1#1 _ (Finset.univ : Finset (Fin 1)) = _
  rw [Finset.univ_unique]
  refine Finset.fold_singleton.trans ?_
  refine congrArg (IntOp.andi · 1#1) ?_
  have e : hR.lift (ix2 n (0 : Fin 1)) (default : Fin 1) = ix3 n (0 : Fin 1) (0 : Fin 1) :=
    funext fun a => Fin.ext (by match a with | ⟨0, _⟩ => rfl | ⟨1, _⟩ => rfl | ⟨2, _⟩ => rfl)
  show val_main_call2_v11 (F := Ideal) x2 (hR.lift (ix2 n (0 : Fin 1)) (default : Fin 1)) = _
  rw [e, val_main_call2_v11_apply, val_main_call2_v7_apply, val_main_call2_v10_apply, start_apply, val_main_call2_v6_apply,
    val_main_call2_v9_apply, val_main_call2_v8_apply, val_main_call2_c_2_apply, val_main_call2_c_1_apply]

/-- The take at row n reads the log-softmax at the clamped start index. -/
theorem take_apply (n : Fin 2000000) :
    val_main_call2_v13 (F := Ideal) x0 x2 (ix2 n (0 : Fin 1))
      = logp (fun k => x0 (ix2 n k)) (clampPos 2 (by decide) (clipIdx (x2 (ix1 n)))) := by
  unfold val_main_call2_v13
  refine (gather_takeLast_apply (N := 2000000) (C := 2) (by decide) gather_S2000000x2_S2000000x1x1_S2000000x1_n_1_0_0_1_2_11_wf
    (val_main_v5 (F := Ideal) x0) (val_main_call2_v5 (F := Ideal) x2) n).trans ?_
  rw [start_apply, logp_apply]

/-! ## The two masked vectors, anchor by anchor -/

/-- Entry n of the reference's masked cross-entropy vector is anchor n's classification term. -/
theorem ce_apply (n : Fin 2000000) :
    val_main_v11 (F := Ideal) x0 x2 (ix1 n) = ceTerm (fun k => x0 (ix2 n k)) (x2 (ix1 n)) := by
  rw [val_main_v11_apply, val_main_v4_apply, val_main_v1_apply, val_main_v3_apply, val_main_v0_apply, val_main_v2_apply,
    val_main_c_apply, val_main_c_0_apply, val_main_call3_v1_apply, val_main_call3_v0_apply, val_main_cst_apply,
    val_main_v10_apply, val_main_v9_apply]
  have e : idx_main_v9 (ix1 n) = ix2 n (0 : Fin 1) :=
    funext fun a => Fin.ext (by match a with | ⟨0, _⟩ => show n.val / 1 = n.val; omega | ⟨1, _⟩ => rfl)
  rw [e, val_main_v8_apply, inrange_apply, take_apply]
  unfold ceTerm
  show Scalar.select (selected (x2 (ix1 n))) (-(Scalar.select _ _ _)) (Ideal.ofBits .f32 0x00000000#32) = _
  rw [Ideal.ofBits_zero_f32]
  generalize x2 (ix1 n) = c
  by_cases h0 : c = 0#32
  · subst h0
    rfl
  by_cases h1 : c = 1#32
  · subst h1
    rfl
  · have hs : selected c = 0#1 := by
      have e1 : IntOp.cmpi .eq c 1#32 = 0#1 := eq_zero_of_ne_one fun h => h1 (StableHlo.Predicate.cmpi_eq_iff.mp h)
      have e0 : IntOp.cmpi .eq c 0#32 = 0#1 := eq_zero_of_ne_one fun h => h0 (StableHlo.Predicate.cmpi_eq_iff.mp h)
      show IntOp.ori (IntOp.cmpi .eq c 1#32) (IntOp.cmpi .eq c 0#32) = 0#1
      rw [e1, e0]; rfl
    rw [hs, select_zero, select_zero]

/-- Entry n of the reference's masked smooth-L1 vector is anchor n's regression term. -/
theorem rl_apply (n : Fin 2000000) :
    val_main_v27 (F := Ideal) x1 x2 x3 (ix1 n) = rlTerm (fun k => x1 (ix2 n k)) (fun k => x3 (ix2 n k)) (x2 (ix1 n)) := by
  rw [val_main_v27_apply, val_main_v1_apply, val_main_v0_apply, val_main_c_apply, val_main_call5_v1_apply, val_main_call5_v0_apply,
    val_main_cst_10_apply, val_main_v26_apply, val_main_v25_apply, val_main_cst_9_apply, val_main_v24_apply]
  unfold rlTerm
  show Scalar.select _ (Ideal.div (Ideal.ofBits .f32 0x00000000#32 + _) four) (Ideal.ofBits .f32 0x00000000#32) = _
  rw [Ideal.ofBits_zero_f32, zero_add]
  refine congrArg (fun z => Scalar.select (IntOp.cmpi .eq (x2 (ix1 n)) 1#32) (Ideal.div z four) 0) ?_
  refine Finset.sum_congr rfl fun k _ => ?_
  have e : idx_main_v24 (ix1 n) k = ix2 n k :=
    funext fun a => Fin.ext (by match a with | ⟨0, _⟩ => rfl | ⟨1, _⟩ => rfl)
  rw [e, val_main_v23_apply, val_main_v17_apply, val_main_v20_apply, val_main_v19_apply, val_main_v22_apply, val_main_v15_apply,
    val_main_v14_apply, val_main_v16_apply, val_main_v18_apply, val_main_v21_apply, val_main_cst_5_apply, val_main_cst_6_apply,
    val_main_cst_7_apply]
  rfl

/-! ## The totals and the three results -/

/-- Summing over the one-axis index type is summing over the anchors. -/
theorem sum_anchors (f : S2000000.Idx → EReal) : ∑ j : S2000000.Idx, f j = ∑ n : Fin 2000000, f (ix1 n) := by
  refine Fintype.sum_equiv ⟨fun j => j 0, ix1, fun j => (eq_ix1 j).symm, fun n => rfl⟩ _ _ fun j => ?_
  exact congrArg f (eq_ix1 j)

theorem ce_total (i : S_.Idx) : val_main_v12 (F := Ideal) x0 x2 i = ceTotal x0 x2 := by
  rw [val_main_v12_apply, sum_anchors]
  show Ideal.ofBits .f32 0x00000000#32 + _ = _
  rw [Ideal.ofBits_zero_f32, zero_add]
  exact Finset.sum_congr rfl fun n _ => ce_apply x0 x2 n

theorem rl_total (i : S_.Idx) : val_main_v28 (F := Ideal) x1 x2 x3 i = rlTotal x1 x3 x2 := by
  rw [val_main_v28_apply, sum_anchors]
  show Ideal.ofBits .f32 0x00000000#32 + _ = _
  rw [Ideal.ofBits_zero_f32, zero_add]
  exact Finset.sum_congr rfl fun n _ => rl_apply x1 x3 x2 n

theorem closs_eq : val_main_v13 (F := Ideal) x0 x2 = fun _ => closs (ceTotal x0 x2) := by
  funext i
  rw [val_main_v13_apply, ce_total, val_main_cst_4_apply]
  rfl

theorem rloss_eq : val_main_v29 (F := Ideal) x1 x2 x3 = fun _ => rloss (rlTotal x1 x3 x2) := by
  funext i
  rw [val_main_v29_apply, rl_total, val_main_cst_12_apply]
  rfl

theorem loss_eq : val_main_v31 (F := Ideal) x0 x1 x2 x3 = fun _ => loss (ceTotal x0 x2) (rlTotal x1 x3 x2) := by
  funext i
  rw [val_main_v31_apply, val_main_v30_apply, closs_eq, rloss_eq, val_main_cst_13_apply]
  rfl

end Cert.ReferenceIdeal.RefLoss

end
-- ==== Proof.lean ====
/-
  The certificate of the anchor-loss kernel against its jnp reference: both compute, from class logits, box predictions,
  labels and box targets of 2,000,000 anchors, the masked cross-entropy total over 64, the masked smooth-L1 total over 16,
  and the first plus ten times the second.

  The kernel walks the anchors in 977 blocks of 2048 over inputs padded to 2,000,896 rows (padding labels are 2, a label
  that is neither class), keeping two running totals that it writes back once after the last block; the reference sums
  the same per-anchor terms over the 2,000,000 rows at once. Over the extended reals a sum may be regrouped into blocks
  and zero terms dropped, so the two agree; the per-anchor terms agree because selecting between the two log-softmax
  entries by "label is 0" and taking the entry at the label clipped to [0, 1] coincide on the labels 0 and 1, and every
  other label is masked out on both sides. No finiteness of the inputs is used.

  The two kernel frames are the generated ones; the reference's frame is its run with the results dropped.
-/
import proofs.«424538_j10943576670681_2_alg».proof.Defs
import proofs.«424538_j10943576670681_2_alg».proof.Proof.Gen.Kernel
import proofs.«424538_j10943576670681_2_alg».proof.Proof.Gen.Kernel.Skeleton
import proofs.«424538_j10943576670681_2_alg».proof.Proof.Gen.Kernel.Launch
import proofs.«424538_j10943576670681_2_alg».proof.Proof.Gen.Kernel.Points
import proofs.«424538_j10943576670681_2_alg».proof.Proof.Gen.Kernel.Frame
import proofs.«424538_j10943576670681_2_alg».proof.Proof.Gen.KernelIdeal
import proofs.«424538_j10943576670681_2_alg».proof.Proof.Gen.KernelIdeal.Skeleton
import proofs.«424538_j10943576670681_2_alg».proof.Proof.Gen.KernelIdeal.Launch
import proofs.«424538_j10943576670681_2_alg».proof.Proof.Gen.KernelIdeal.Points
import proofs.«424538_j10943576670681_2_alg».proof.Proof.Gen.KernelIdeal.Frame
import proofs.«424538_j10943576670681_2_alg».proof.Proof.Gen.ReferenceIdeal
import proofs.«424538_j10943576670681_2_alg».proof.Proof.Gen.Pre_finite_inputs
import proofs.«424538_j10943576670681_2_alg».proof.Proof.KernelResults
import proofs.«424538_j10943576670681_2_alg».proof.Proof.RefPlainRun
import proofs.«424538_j10943576670681_2_alg».proof.Proof.RefValue
import Idealize.ShloMosaic.Adequacy
import Idealize.ShloMosaic.Init

noncomputable section

namespace Cert.Proof

open Idealize.ShloMosaic Idealize.ShloMosaic.TcCoe Idealize.SL.Sem Cert.AnchorLoss

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference runs and leaves its inputs as they were: its run with the three results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Plain.run (F := Ideal) m ρ)

/-- Both programs end at the three losses of the inputs' two totals. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, Cert.KernelIdeal.Loss.run m ρ, ?_⟩
  refine (θ_run Cert.ReferenceIdeal.defs _ _).mono (fun _ h c => ?_) (Cert.ReferenceIdeal.Plain.run (F := Ideal) m' ρ')
  obtain ⟨h13, h29, h31, ha⟩ := h c
  obtain ⟨e0, e1, e2, e3⟩ := hagree c
  refine ⟨h13.trans ?_, h29.trans ?_, h31.trans ?_, ha⟩
  · rw [Cert.ReferenceIdeal.RefLoss.closs_eq, e0, e2]
    rfl
  · rw [Cert.ReferenceIdeal.RefLoss.rloss_eq, e1, e2, e3]
    rfl
  · rw [Cert.ReferenceIdeal.RefLoss.loss_eq, e0, e1, e2, e3]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
